-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S64x64 : Shape := ⟨2, ![64, 64]⟩
abbrev S144x64 : Shape := ⟨2, ![144, 64]⟩
abbrev S64x5 : Shape := ⟨2, ![64, 5]⟩
abbrev S5 : Shape := ⟨1, ![5]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S144x64 : S_.BroadcastsInDim S144x64 (![] : Fin 0 → Fin S144x64.rank)
  reducesTo_S144x64_S_d0_1 : S144x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S64 .f32) (main_arg9 : FVec F S64x5 .f32) (main_arg10 : FVec F S5 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x5 .f32 := Host.absf main_arg9
  let main_cst_14 : FVec F S_ .f32 := constant S_ .f32 0x7F800000#32
  let main_v40 : FVec F S64x5 .f32 := broadcastInDim S64x5 ![] bcast_S_S64x5 main_cst_14
  let main_v41 : IVec S64x5 1 := cmpf .olt main_v39 main_v40
  let main_c_15 : IVec S_ 1 := constantI S_ 1 1#1
  let main_v42 : IVec S_ 1 := (fun x v => Host.reduce IntOp.andi x v reducesTo_S64x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S144x64 .f32) (main_arg8 : FVec F S64 .f32) (main_arg9 : FVec F S64x5 .f32) (main_arg10 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S144x64 .f32 := Host.absf main_arg7
  let main_cst_10 : FVec F S_ .f32 := constant S_ .f32 0x7F800000#32
  let main_v30 : FVec F S144x64 .f32 := broadcastInDim S144x64 ![] bcast_S_S144x64 main_cst_10
  let main_v31 : IVec S144x64 1 := cmpf .olt main_v29 main_v30
  let main_c_11 : IVec S_ 1 := constantI S_ 1 1#1
  let main_v32 : IVec S_ 1 := (fun x v => Host.reduce IntOp.andi x v reducesTo_S144x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : IVec S2x1600000 32) (main_arg2 : FVec F S1600000x16 .f32) (main_arg3 : FVec F S32x64 .f32) (main_arg4 : FVec F S64 .f32) (main_arg5 : FVec F S64x64 .f32) (main_arg6 : FVec F S64 .f32) (main_arg7 : FVec F S144x64 .f32) (main_arg8 : FVec F S64 .f32) (main_arg9 : FVec F S64x5 .f32) (main_arg10 : FVec F S5 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S64x64 : Shape := ⟨2, ![64, 64]⟩
abbrev S144x64 : Shape := ⟨2, ![144, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x32 : Shape := ⟨2, ![5000, 32]⟩
abbrev S5000x64 : Shape := ⟨2, ![5000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S16x64 : Shape := ⟨2, ![16, 64]⟩
abbrev S1x5 : Shape := ⟨2, ![1, 5]⟩
abbrev S1600000x5 : Shape := ⟨2, ![1600000, 5]⟩
abbrev S8000x64 : Shape := ⟨2, ![8000, 64]⟩
abbrev S8000x16 : Shape := ⟨2, ![8000, 16]⟩
abbrev S8000x5 : Shape := ⟨2, ![8000, 5]⟩

abbrev nBuf : Space → Nat
  | .hbm => 113
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x16, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S144x64, .f32⟩
  | .hbm, ⟨8, _⟩ => ⟨S64, .f32⟩
  | .hbm, ⟨9, _⟩ => ⟨S64x5, .f32⟩
  | .hbm, ⟨10, _⟩ => ⟨S5, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S100000x64, .bf16⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .bf16⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .bf16⟩
  | .hbm, ⟨106, _⟩ => ⟨S1600000x16, .bf16⟩
  | .hbm, ⟨107, _⟩ => ⟨S64x64, .f32⟩
  | .hbm, ⟨108, _⟩ => ⟨S64x64, .f32⟩
  | .hbm, ⟨109, _⟩ => ⟨S16x64, .f32⟩
  | .hbm, ⟨110, _⟩ => ⟨S1x64, .f32⟩
  | .hbm, ⟨111, _⟩ => ⟨S1x5, .f32⟩
  | .hbm, ⟨112, _⟩ => ⟨S1600000x5, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S8000x64, .bf16⟩
  | .local _ .vmem, ⟨11, _⟩ => ⟨S8000x64, .bf16⟩
  | .local _ .vmem, ⟨12, _⟩ => ⟨S8000x64, .bf16⟩
  | .local _ .vmem, ⟨13, _⟩ => ⟨S8000x64, .bf16⟩
  | .local _ .vmem, ⟨14, _⟩ => ⟨S8000x16, .bf16⟩
  | .local _ .vmem, ⟨15, _⟩ => ⟨S8000x16, .bf16⟩
  | .local _ .vmem, ⟨16, _⟩ => ⟨S64x64, .f32⟩
  | .local _ .vmem, ⟨17, _⟩ => ⟨S64x64, .f32⟩
  | .local _ .vmem, ⟨18, _⟩ => ⟨S16x64, .f32⟩
  | .local _ .vmem, ⟨19, _⟩ => ⟨S1x64, .f32⟩
  | .local _ .vmem, ⟨20, _⟩ => ⟨S64x5, .f32⟩
  | .local _ .vmem, ⟨21, _⟩ => ⟨S1x5, .f32⟩
  | .local _ .vmem, ⟨22, _⟩ => ⟨S8000x5, .f32⟩
  | .local _ .vmem, ⟨23, _⟩ => ⟨S8000x5, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_12 : Ref sig .tc := ⟨.hbm, 97, rfl⟩
abbrev main_v70 : Ref sig .tc := ⟨.hbm, 98, rfl⟩
abbrev main_v71 : Ref sig .tc := ⟨.hbm, 99, rfl⟩
abbrev main_c_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem9_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x5 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x5 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x5 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  shapeCasts_S5_S1x5 : S5.ShapeCasts S1x5
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8000x5 : S1x5.Broadcasts S8000x5
  inb_S8000x5_S8000x5_0_0 : ∀ a, (![0, 0] : Fin 2 → Nat) a + S8000x5.size a ≤ S8000x5.size a
  h_S8000x5 : 0 < S8000x5.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x16_S16x64_S8000x64_1_0_0_1_n_n_wf : DotDims.WF S8000x16 S16x64 S8000x64 [1] [0] [0] [1] [] []
  dot_S8000x64_S64x5_S8000x5_1_0_0_1_n_n_wf : DotDims.WF S8000x64 S64x5 S8000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .bf16 = 32 ∨ (Rect.block (s := S1600000x64) S8000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .bf16 = 32 ∨ (Rect.block (s := S1600000x64) S8000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x16.size a ≤ S1600000x16.size a
  hwx2_2 : ∀ i : grid2.Coords, EltTy.bits .bf16 = 32 ∨ (Rect.block (s := S1600000x16) S8000x16.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x64.size a ≤ S16x64.size a
  hwx2_5 : ∀ i : grid2.Coords, EltTy.bits .f32 = 32 ∨ (Rect.block (s := S16x64) S16x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x5.size a ≤ S64x5.size a
  hwx2_7 : ∀ i : grid2.Coords, EltTy.bits .f32 = 32 ∨ (Rect.block (s := S64x5) S64x5.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x5.size a ≤ S1x5.size a
  hwx2_8 : ∀ i : grid2.Coords, EltTy.bits .f32 = 32 ∨ (Rect.block (s := S1x5) S1x5.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x5.size a ≤ S1600000x5.size a
  hwx2_9 : ∀ i : grid2.Coords, EltTy.bits .f32 = 32 ∨ (Rect.block (s := S1600000x5) S8000x5.size (cc2_transform_9 i) (hinb2_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def dot_S8000x64_S64x5_S8000x5_1_0_0_1_n_n : DotDims S8000x64 S64x5 S8000x5 where
  lhsContracting := [1]
  rhsContracting := [0]
  lhsNonContracting := [0]
  rhsNonContracting := [1]
  lhsBatch := []
  rhsBatch := []
  wf := dot_S8000x64_S64x5_S8000x5_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S8000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S16x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v81) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S64x5.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v82) S1x5.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v83) S8000x5.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S32x64 : Shape := ⟨2, ![32, 64]⟩
abbrev S64 : Shape := ⟨1, ![64]⟩
abbrev S64x64 : Shape := ⟨2, ![64, 64]⟩
abbrev S144x64 : Shape := ⟨2, ![144, 64]⟩
abbrev S64x5 : Shape := ⟨2, ![64, 5]⟩
abbrev S5 : Shape := ⟨1, ![5]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x144 : Shape := ⟨2, ![1600000, 144]⟩
abbrev S1600000x5 : Shape := ⟨2, ![1600000, 5]⟩
abbrev S1x5 : Shape := ⟨2, ![1, 5]⟩

abbrev nBuf : Space → Nat
  | .hbm => 146
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S32x64, .f32⟩
  | 4 => ⟨S64, .f32⟩
  | 5 => ⟨S64x64, .f32⟩
  | 6 => ⟨S64, .f32⟩
  | 7 => ⟨S144x64, .f32⟩
  | 8 => ⟨S64, .f32⟩
  | 9 => ⟨S64x5, .f32⟩
  | 10 => ⟨S5, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x1, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S_, .i32⟩
  | 126 => ⟨S1600000, .i32⟩
  | 127 => ⟨S1600000, .i1⟩
  | _ => ⟨S100000x32, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x144, .f32⟩
  | 7 => ⟨S1600000x64, .f32⟩
  | 8 => ⟨S1x64, .f32⟩
  | 9 => ⟨S1600000x64, .f32⟩
  | 10 => ⟨S1600000x64, .f32⟩
  | 11 => ⟨S_, .f32⟩
  | 12 => ⟨S1600000x64, .f32⟩
  | 13 => ⟨S1600000x64, .f32⟩
  | 14 => ⟨S1600000x5, .f32⟩
  | 15 => ⟨S1x5, .f32⟩
  | 16 => ⟨S1600000x5, .f32⟩
  | 17 => ⟨S1600000x5, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_16 : Ref sig .tc := ⟨.hbm, 116, rfl⟩
abbrev main_v85 : Ref sig .tc := ⟨.hbm, 117, rfl⟩
abbrev main_v86 : Ref sig .tc := ⟨.hbm, 118, rfl⟩
abbrev main_c_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call1_cst : Ref sig .tc := ⟨.hbm, 139, rfl⟩
abbrev main_call1_v0 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S5_S1x5_1 : S5.BroadcastsInDim S1x5 (![1] : Fin 1 → Fin S1x5.rank)
  bcast_S1x5_S1600000x5_0_1 : S1x5.BroadcastsInDim S1600000x5 (![0, 1] : Fin 2 → Fin S1600000x5.rank)
  dot_S100000x32_S32x64_S100000x64_1_0_0_1_n_n_wf : DotDims.WF S100000x32 S32x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  dot_S1600000x64_S64x5_S1600000x5_1_0_0_1_n_n_wf : DotDims.WF S1600000x64 S64x5 S1600000x5 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def dot_S1600000x64_S64x5_S1600000x5_1_0_0_1_n_n : DotDims S1600000x64 S64x5 S1600000x5 where
  lhsContracting := [1]
  rhsContracting := [0]
  lhsNonContracting := [0]
  rhsNonContracting := [1]
  lhsBatch := []
  rhsBatch := []
  wf := dot_S1600000x64_S64x5_S1600000x5_1_0_0_1_n_n_wf

class Facts : Prop extends Facts₀ where

variable [Facts]
-- ==== Proof.Spec.lean ====
/-
  The graph network both programs compute, as ONE composition of whole-array functions of the eleven
  arguments, read at any float instance.  Edges `e = (src e, dst e)` come from the two rows of the
  index array; a self loop is appended for each of the 100000 nodes; a negative index is wrapped by the
  node count before it is used to gather.  With `deg` the number of (appended) edges that end at a node,
  an edge's weight is `deg(src)^(-1/2) * deg(dst)^(-1/2)`; a propagation step sends a node table `h` to
  `(sum over edges into the node of weight * h[src]) + bias`.  The node embedding is two such steps, the
  first after `x * W1` and followed by `max(., 0)`, the second after `. * W2`.  An edge's score is a
  two-layer perceptron of the row `[emb[src] | emb[dst] | edge_attr]` of width 144.
-/
import proofs.«169596_j25220047962748_1_alg».proof.ReferenceIdeal

noncomputable section

namespace Cert.Graph

open Idealize.ShloMosaic Cert.ReferenceIdeal

variable {F : FTy → Type} [FloatOps F] [Cert.ReferenceIdeal.Facts]
open Cert.ReferenceIdeal.Facts₀ Cert.ReferenceIdeal.Facts

/-- Row 0 of the index array: each edge's source node. -/
def srcIds (ei : IVec S2x1600000 32) : IVec S1600000 32 :=
  shapeCast _ (extractStridedSlice S1x1600000 ![0, 0] ei slices_S2x1600000_S1x1600000_0_0) shapeCasts_S1x1600000_S1600000

/-- Row 1 of the index array: each edge's destination node. -/
def dstIds (ei : IVec S2x1600000 32) : IVec S1600000 32 :=
  shapeCast _ (extractStridedSlice S1x1600000 ![1, 0] ei slices_S2x1600000_S1x1600000_1_0) shapeCasts_S1x1600000_S1600000

/-- The sources with one self loop per node appended. -/
def srcLoop (ei : IVec S2x1600000 32) : IVec S1700000 32 :=
  concatenate S1700000 0 [⟨S1600000, srcIds ei⟩, ⟨S100000, (iotaInDim S100000 32 0)⟩] concatenates_S1600000_S100000_S1700000_d0

/-- The destinations with one self loop per node appended. -/
def dstLoop (ei : IVec S2x1600000 32) : IVec S1700000 32 :=
  concatenate S1700000 0 [⟨S1600000, dstIds ei⟩, ⟨S100000, (iotaInDim S100000 32 0)⟩] concatenates_S1600000_S100000_S1700000_d0

/-- A negative node index counts from the end: add the node count (1700000 entries). -/
def wrapNode (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The same over the 1600000 edges. -/
def wrapEdge (v : IVec S1600000 32) : IVec S1600000 32 :=
  select (cmpi .slt v (broadcastInDim S1600000 ![] bcast_S_S1600000 (constantI S_ 32 0#32))) (addi v (broadcastInDim S1600000 ![] bcast_S_S1600000 (constantI S_ 32 100000#32))) v

/-- `deg^(-1/2)` per node, `deg` the count of appended edges ending there. -/
def invSqrtDeg (ei : IVec S2x1600000 32) : FVec F S100000 .f32 :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (dstLoop ei)) (broadcastInDim S1700000 ![] bcast_S_S1700000 (constant S_ .f32 0x3F800000#32)))

/-- Each appended edge's weight `deg(src)^(-1/2) * deg(dst)^(-1/2)`. -/
def edgeWeight (ei : IVec S2x1600000 32) : FVec F S1700000 .f32 :=
  mulf (Host.gather gather_S100000_S1700000x1_S1700000_n_0_n_n_0_1_1 (invSqrtDeg (F := F) ei) (broadcastInDim S1700000x1 ![0] bcast_S1700000_S1700000x1_0 (wrapNode (srcLoop ei)))) (Host.gather gather_S100000_S1700000x1_S1700000_n_0_n_n_0_1_1 (invSqrtDeg (F := F) ei) (broadcastInDim S1700000x1 ![0] bcast_S1700000_S1700000x1_0 (wrapNode (dstLoop ei))))

/-- One propagation step: every node sums `weight * h[src]` over the appended edges ending at it, then adds the bias row. -/
def propagate (h : FVec F S100000x64 .f32) (b : FVec F S64 .f32) (ei : IVec S2x1600000 32) : FVec F S100000x64 .f32 :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstLoop ei)) (mulf (Host.gather gather_S100000x64_S1700000x1_S1700000x64_1_0_n_n_0_1_164 h (broadcastInDim S1700000x1 ![0] bcast_S1700000_S1700000x1_0 (wrapNode (srcLoop ei)))) (broadcastInDim S1700000x64 ![0, 1] bcast_S1700000x1_S1700000x64_0_1 (broadcastInDim S1700000x1 ![0] bcast_S1700000_S1700000x1_0 (edgeWeight (F := F) ei))))) (broadcastInDim S100000x64 ![0, 1] bcast_S1x64_S100000x64_0_1 (broadcastInDim S1x64 ![1] bcast_S64_S1x64_1 b))

/-- `max(h, 0)` over the node table. -/
def reluNodes (h : FVec F S100000x64 .f32) : FVec F S100000x64 .f32 :=
  maximumf h (broadcastInDim S100000x64 ![] bcast_S_S100000x64 (constant S_ .f32 0x00000000#32))

/-- The first layer's product `x * W1`. -/
def lin1 (x : FVec F S100000x32 .f32) (w : FVec F S32x64 .f32) : FVec F S100000x64 .f32 :=
  Host.dotGeneral dot_S100000x32_S32x64_S100000x64_1_0_0_1_n_n none x w

/-- The second layer's product `h * W2`. -/
def lin2 (h : FVec F S100000x64 .f32) (w : FVec F S64x64 .f32) : FVec F S100000x64 .f32 :=
  Host.dotGeneral dot_S100000x64_S64x64_S100000x64_1_0_0_1_n_n none h w

/-- The node embedding: two propagation steps, `max(., 0)` between them. -/
def nodeEmb (x : FVec F S100000x32 .f32) (ei : IVec S2x1600000 32) (w1 : FVec F S32x64 .f32) (b1 : FVec F S64 .f32)
    (w2 : FVec F S64x64 .f32) (b2 : FVec F S64 .f32) : FVec F S100000x64 .f32 :=
  propagate (lin2 (reluNodes (propagate (lin1 x w1) b1 ei)) w2) b2 ei

/-- The rows of a node table at each edge's (wrapped) endpoint. -/
def rowsAt (h : FVec F S100000x64 .f32) (v : IVec S1600000 32) : FVec F S1600000x64 .f32 :=
  Host.gather gather_S100000x64_S1600000x1_S1600000x64_1_0_n_n_0_1_164 h (broadcastInDim S1600000x1 ![0] bcast_S1600000_S1600000x1_0 (wrapEdge v))

/-- The edge perceptron on the concatenated row `[hs | hd | ea]`: `max(row * Wc1 + bc1, 0) * Wc2 + bc2`. -/
def edgeMlp (hs hd : FVec F S1600000x64 .f32) (ea : FVec F S1600000x16 .f32) (wc1 : FVec F S144x64 .f32) (bc1 : FVec F S64 .f32)
    (wc2 : FVec F S64x5 .f32) (bc2 : FVec F S5 .f32) : FVec F S1600000x5 .f32 :=
  addf (Host.dotGeneral dot_S1600000x64_S64x5_S1600000x5_1_0_0_1_n_n none (maximumf (addf (Host.dotGeneral dot_S1600000x144_S144x64_S1600000x64_1_0_0_1_n_n none (concatenate S1600000x144 1 [⟨S1600000x64, hs⟩, ⟨S1600000x64, hd⟩, ⟨S1600000x16, ea⟩] concatenates_S1600000x64_S1600000x64_S1600000x16_S1600000x144_d1) wc1) (broadcastInDim S1600000x64 ![0, 1] bcast_S1x64_S1600000x64_0_1 (broadcastInDim S1x64 ![1] bcast_S64_S1x64_1 bc1))) (broadcastInDim S1600000x64 ![] bcast_S_S1600000x64 (constant S_ .f32 0x00000000#32))) wc2) (broadcastInDim S1600000x5 ![0, 1] bcast_S1x5_S1600000x5_0_1 (broadcastInDim S1x5 ![1] bcast_S5_S1x5_1 bc2))

/-- Every edge's five scores, from the eleven arguments. -/
def edgeScores (x : FVec F S100000x32 .f32) (ei : IVec S2x1600000 32) (ea : FVec F S1600000x16 .f32)
    (w1 : FVec F S32x64 .f32) (b1 : FVec F S64 .f32) (w2 : FVec F S64x64 .f32) (b2 : FVec F S64 .f32)
    (wc1 : FVec F S144x64 .f32) (bc1 : FVec F S64 .f32) (wc2 : FVec F S64x5 .f32) (bc2 : FVec F S5 .f32) : FVec F S1600000x5 .f32 :=
  edgeMlp (rowsAt (nodeEmb x ei w1 b1 w2 b2) (srcIds ei)) (rowsAt (nodeEmb x ei w1 b1 w2 b2) (dstIds ei)) ea wc1 bc1 wc2 bc2

end Cert.Graph

end
-- ==== Proof.ChainKeep.lean ====
/- The index plumbing (the edges' endpoints, the same with a self loop per node, the edge weights) depends on the index
   array only: the first stretch of host operations computes it, and no later operation or region writes those buffers
   or an argument's.  So at every later boundary each of them still holds the same function of the arguments. -/
import proofs.«169596_j25220047962748_1_alg».proof.Proof.Gen.KernelIdeal.Frame
import proofs.«169596_j25220047962748_1_alg».proof.Proof.Gen.ReferenceIdeal
import proofs.«169596_j25220047962748_1_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- Before the first product: the sources with the self loops. -/
theorem W1_v5 (c : Dev nD) : W1 m ρ c (Proc.devRef .tc main_v5) = Cert.Graph.srcLoop (m ((c : Thread nD τ).loc main_arg1)) := by
  show StableHlo.after hostOps0 (W0 m ρ c) (Proc.devRef .tc main_v5) = _
  after_results_simp <;> rfl
theorem W2_v5 (c : Dev nD) : W2 m ρ c (Proc.devRef .tc main_v5) = Cert.Graph.srcLoop (m ((c : Thread nD τ).loc main_arg1)) :=
  (W2_of_ne m ρ c main_v5 (by decide)).trans (W1_v5 m ρ c)
theorem W4_v5 (c : Dev nD) : W4 m ρ c (Proc.devRef .tc main_v5) = Cert.Graph.srcLoop (m ((c : Thread nD τ).loc main_arg1)) :=
  (show StableHlo.after hostOps1_1 (StableHlo.after hostOps1 (W2 m ρ c)) (Proc.devRef .tc main_v5) = W2 m ρ c (Proc.devRef .tc main_v5) by
    after_results_simp <;> rfl).trans (W2_v5 m ρ c)
theorem W5_v5 (c : Dev nD) : W5 m ρ c (Proc.devRef .tc main_v5) = Cert.Graph.srcLoop (m ((c : Thread nD τ).loc main_arg1)) :=
  (W5_of_ne m ρ c main_v5 (by decide)).trans (W4_v5 m ρ c)

/-- Before the first product: the destinations with the self loops. -/
theorem W1_v6 (c : Dev nD) : W1 m ρ c (Proc.devRef .tc main_v6) = Cert.Graph.dstLoop (m ((c : Thread nD τ).loc main_arg1)) := by
  show StableHlo.after hostOps0 (W0 m ρ c) (Proc.devRef .tc main_v6) = _
  after_results_simp <;> rfl
theorem W2_v6 (c : Dev nD) : W2 m ρ c (Proc.devRef .tc main_v6) = Cert.Graph.dstLoop (m ((c : Thread nD τ).loc main_arg1)) :=
  (W2_of_ne m ρ c main_v6 (by decide)).trans (W1_v6 m ρ c)
theorem W4_v6 (c : Dev nD) : W4 m ρ c (Proc.devRef .tc main_v6) = Cert.Graph.dstLoop (m ((c : Thread nD τ).loc main_arg1)) :=
  (show StableHlo.after hostOps1_1 (StableHlo.after hostOps1 (W2 m ρ c)) (Proc.devRef .tc main_v6) = W2 m ρ c (Proc.devRef .tc main_v6) by
    after_results_simp <;> rfl).trans (W2_v6 m ρ c)
theorem W5_v6 (c : Dev nD) : W5 m ρ c (Proc.devRef .tc main_v6) = Cert.Graph.dstLoop (m ((c : Thread nD τ).loc main_arg1)) :=
  (W5_of_ne m ρ c main_v6 (by decide)).trans (W4_v6 m ρ c)

/-- Before the first product: the edge weights. -/
theorem W1_v26 (c : Dev nD) : W1 m ρ c (Proc.devRef .tc main_v26) = Cert.Graph.edgeWeight (m ((c : Thread nD τ).loc main_arg1)) := by
  show StableHlo.after hostOps0 (W0 m ρ c) (Proc.devRef .tc main_v26) = _
  after_results_simp <;> rfl
theorem W2_v26 (c : Dev nD) : W2 m ρ c (Proc.devRef .tc main_v26) = Cert.Graph.edgeWeight (m ((c : Thread nD τ).loc main_arg1)) :=
  (W2_of_ne m ρ c main_v26 (by decide)).trans (W1_v26 m ρ c)
theorem W4_v26 (c : Dev nD) : W4 m ρ c (Proc.devRef .tc main_v26) = Cert.Graph.edgeWeight (m ((c : Thread nD τ).loc main_arg1)) :=
  (show StableHlo.after hostOps1_1 (StableHlo.after hostOps1 (W2 m ρ c)) (Proc.devRef .tc main_v26) = W2 m ρ c (Proc.devRef .tc main_v26) by
    after_results_simp <;> rfl).trans (W2_v26 m ρ c)
theorem W5_v26 (c : Dev nD) : W5 m ρ c (Proc.devRef .tc main_v26) = Cert.Graph.edgeWeight (m ((c : Thread nD τ).loc main_arg1)) :=
  (W5_of_ne m ρ c main_v26 (by decide)).trans (W4_v26 m ρ c)

/-- Before the first product: argument 4 as launched. -/
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W2_arg4 (c : Dev nD) : W2 m ρ c (Proc.devRef .tc main_arg4) = m ((c : Thread nD τ).loc main_arg4) :=
  (W2_of_ne m ρ c main_arg4 (by decide)).trans (W1_arg4 m ρ c)

/-- Before the first product: argument 5 as launched. -/
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W2_arg5 (c : Dev nD) : W2 m ρ c (Proc.devRef .tc main_arg5) = m ((c : Thread nD τ).loc main_arg5) :=
  (W2_of_ne m ρ c main_arg5 (by decide)).trans (W1_arg5 m ρ c)
theorem W4_arg5 (c : Dev nD) : W4 m ρ c (Proc.devRef .tc main_arg5) = m ((c : Thread nD τ).loc main_arg5) :=
  (show StableHlo.after hostOps1_1 (StableHlo.after hostOps1 (W2 m ρ c)) (Proc.devRef .tc main_arg5) = W2 m ρ c (Proc.devRef .tc main_arg5) by
    after_results_simp <;> rfl).trans (W2_arg5 m ρ c)

/-- Before the first product: argument 6 as launched. -/
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W2_arg6 (c : Dev nD) : W2 m ρ c (Proc.devRef .tc main_arg6) = m ((c : Thread nD τ).loc main_arg6) :=
  (W2_of_ne m ρ c main_arg6 (by decide)).trans (W1_arg6 m ρ c)
theorem W4_arg6 (c : Dev nD) : W4 m ρ c (Proc.devRef .tc main_arg6) = m ((c : Thread nD τ).loc main_arg6) :=
  (show StableHlo.after hostOps1_1 (StableHlo.after hostOps1 (W2 m ρ c)) (Proc.devRef .tc main_arg6) = W2 m ρ c (Proc.devRef .tc main_arg6) by
    after_results_simp <;> rfl).trans (W2_arg6 m ρ c)
theorem W5_arg6 (c : Dev nD) : W5 m ρ c (Proc.devRef .tc main_arg6) = m ((c : Thread nD τ).loc main_arg6) :=
  (W5_of_ne m ρ c main_arg6 (by decide)).trans (W4_arg6 m ρ c)

/-- Before the first product: each edge's source. -/
theorem W1_v1 (c : Dev nD) : W1 m ρ c (Proc.devRef .tc main_v1) = Cert.Graph.srcIds (m ((c : Thread nD τ).loc main_arg1)) := by
  show StableHlo.after hostOps0 (W0 m ρ c) (Proc.devRef .tc main_v1) = _
  after_results_simp <;> rfl
theorem W2_v1 (c : Dev nD) : W2 m ρ c (Proc.devRef .tc main_v1) = Cert.Graph.srcIds (m ((c : Thread nD τ).loc main_arg1)) :=
  (W2_of_ne m ρ c main_v1 (by decide)).trans (W1_v1 m ρ c)
theorem W4_v1 (c : Dev nD) : W4 m ρ c (Proc.devRef .tc main_v1) = Cert.Graph.srcIds (m ((c : Thread nD τ).loc main_arg1)) :=
  (show StableHlo.after hostOps1_1 (StableHlo.after hostOps1 (W2 m ρ c)) (Proc.devRef .tc main_v1) = W2 m ρ c (Proc.devRef .tc main_v1) by
    after_results_simp <;> rfl).trans (W2_v1 m ρ c)
theorem W5_v1 (c : Dev nD) : W5 m ρ c (Proc.devRef .tc main_v1) = Cert.Graph.srcIds (m ((c : Thread nD τ).loc main_arg1)) :=
  (W5_of_ne m ρ c main_v1 (by decide)).trans (W4_v1 m ρ c)

/-- Before the first product: each edge's destination. -/
theorem W1_v3 (c : Dev nD) : W1 m ρ c (Proc.devRef .tc main_v3) = Cert.Graph.dstIds (m ((c : Thread nD τ).loc main_arg1)) := by
  show StableHlo.after hostOps0 (W0 m ρ c) (Proc.devRef .tc main_v3) = _
  after_results_simp <;> rfl
theorem W2_v3 (c : Dev nD) : W2 m ρ c (Proc.devRef .tc main_v3) = Cert.Graph.dstIds (m ((c : Thread nD τ).loc main_arg1)) :=
  (W2_of_ne m ρ c main_v3 (by decide)).trans (W1_v3 m ρ c)
theorem W4_v3 (c : Dev nD) : W4 m ρ c (Proc.devRef .tc main_v3) = Cert.Graph.dstIds (m ((c : Thread nD τ).loc main_arg1)) :=
  (show StableHlo.after hostOps1_1 (StableHlo.after hostOps1 (W2 m ρ c)) (Proc.devRef .tc main_v3) = W2 m ρ c (Proc.devRef .tc main_v3) by
    after_results_simp <;> rfl).trans (W2_v3 m ρ c)
theorem W5_v3 (c : Dev nD) : W5 m ρ c (Proc.devRef .tc main_v3) = Cert.Graph.dstIds (m ((c : Thread nD τ).loc main_arg1)) :=
  (W5_of_ne m ρ c main_v3 (by decide)).trans (W4_v3 m ρ c)

/-- Before the first product: argument 2 as launched. -/
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W2_arg2 (c : Dev nD) : W2 m ρ c (Proc.devRef .tc main_arg2) = m ((c : Thread nD τ).loc main_arg2) :=
  (W2_of_ne m ρ c main_arg2 (by decide)).trans (W1_arg2 m ρ c)
theorem W4_arg2 (c : Dev nD) : W4 m ρ c (Proc.devRef .tc main_arg2) = m ((c : Thread nD τ).loc main_arg2) :=
  (show StableHlo.after hostOps1_1 (StableHlo.after hostOps1 (W2 m ρ c)) (Proc.devRef .tc main_arg2) = W2 m ρ c (Proc.devRef .tc main_arg2) by
    after_results_simp <;> rfl).trans (W2_arg2 m ρ c)
theorem W5_arg2 (c : Dev nD) : W5 m ρ c (Proc.devRef .tc main_arg2) = m ((c : Thread nD τ).loc main_arg2) :=
  (W5_of_ne m ρ c main_arg2 (by decide)).trans (W4_arg2 m ρ c)

/-- Before the first product: argument 7 as launched. -/
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W2_arg7 (c : Dev nD) : W2 m ρ c (Proc.devRef .tc main_arg7) = m ((c : Thread nD τ).loc main_arg7) :=
  (W2_of_ne m ρ c main_arg7 (by decide)).trans (W1_arg7 m ρ c)
theorem W4_arg7 (c : Dev nD) : W4 m ρ c (Proc.devRef .tc main_arg7) = m ((c : Thread nD τ).loc main_arg7) :=
  (show StableHlo.after hostOps1_1 (StableHlo.after hostOps1 (W2 m ρ c)) (Proc.devRef .tc main_arg7) = W2 m ρ c (Proc.devRef .tc main_arg7) by
    after_results_simp <;> rfl).trans (W2_arg7 m ρ c)
theorem W5_arg7 (c : Dev nD) : W5 m ρ c (Proc.devRef .tc main_arg7) = m ((c : Thread nD τ).loc main_arg7) :=
  (W5_of_ne m ρ c main_arg7 (by decide)).trans (W4_arg7 m ρ c)

/-- Before the first product: argument 8 as launched. -/
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W2_arg8 (c : Dev nD) : W2 m ρ c (Proc.devRef .tc main_arg8) = m ((c : Thread nD τ).loc main_arg8) :=
  (W2_of_ne m ρ c main_arg8 (by decide)).trans (W1_arg8 m ρ c)
theorem W4_arg8 (c : Dev nD) : W4 m ρ c (Proc.devRef .tc main_arg8) = m ((c : Thread nD τ).loc main_arg8) :=
  (show StableHlo.after hostOps1_1 (StableHlo.after hostOps1 (W2 m ρ c)) (Proc.devRef .tc main_arg8) = W2 m ρ c (Proc.devRef .tc main_arg8) by
    after_results_simp <;> rfl).trans (W2_arg8 m ρ c)
theorem W5_arg8 (c : Dev nD) : W5 m ρ c (Proc.devRef .tc main_arg8) = m ((c : Thread nD τ).loc main_arg8) :=
  (W5_of_ne m ρ c main_arg8 (by decide)).trans (W4_arg8 m ρ c)

/-- Before the first product: argument 10 as launched. -/
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W2_arg10 (c : Dev nD) : W2 m ρ c (Proc.devRef .tc main_arg10) = m ((c : Thread nD τ).loc main_arg10) :=
  (W2_of_ne m ρ c main_arg10 (by decide)).trans (W1_arg10 m ρ c)
theorem W4_arg10 (c : Dev nD) : W4 m ρ c (Proc.devRef .tc main_arg10) = m ((c : Thread nD τ).loc main_arg10) :=
  (show StableHlo.after hostOps1_1 (StableHlo.after hostOps1 (W2 m ρ c)) (Proc.devRef .tc main_arg10) = W2 m ρ c (Proc.devRef .tc main_arg10) by
    after_results_simp <;> rfl).trans (W2_arg10 m ρ c)
theorem W5_arg10 (c : Dev nD) : W5 m ρ c (Proc.devRef .tc main_arg10) = m ((c : Thread nD τ).loc main_arg10) :=
  (W5_of_ne m ρ c main_arg10 (by decide)).trans (W4_arg10 m ρ c)

/-- Before the first product: argument 9 as launched. -/
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W2_arg9 (c : Dev nD) : W2 m ρ c (Proc.devRef .tc main_arg9) = m ((c : Thread nD τ).loc main_arg9) :=
  (W2_of_ne m ρ c main_arg9 (by decide)).trans (W1_arg9 m ρ c)
theorem W4_arg9 (c : Dev nD) : W4 m ρ c (Proc.devRef .tc main_arg9) = m ((c : Thread nD τ).loc main_arg9) :=
  (show StableHlo.after hostOps1_1 (StableHlo.after hostOps1 (W2 m ρ c)) (Proc.devRef .tc main_arg9) = W2 m ρ c (Proc.devRef .tc main_arg9) by
    after_results_simp <;> rfl).trans (W2_arg9 m ρ c)
theorem W5_arg9 (c : Dev nD) : W5 m ρ c (Proc.devRef .tc main_arg9) = m ((c : Thread nD τ).loc main_arg9) :=
  (W5_of_ne m ρ c main_arg9 (by decide)).trans (W4_arg9 m ρ c)
theorem W6_arg9 (c : Dev nD) : W6 m ρ c (Proc.devRef .tc main_arg9) = m ((c : Thread nD τ).loc main_arg9) :=
  (show StableHlo.after hostOps2 (W5 m ρ c) (Proc.devRef .tc main_arg9) = W5 m ρ c (Proc.devRef .tc main_arg9) by
    after_results_simp <;> rfl).trans (W5_arg9 m ρ c)

/-- Before the first product: argument 0 as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

/-- Before the first product: argument 3 as launched. -/
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

end Cert.KernelIdeal.Chain

end
-- ==== Proof.ChainHost.lean ====
/-
  The kernel program's host stretches between its matrix regions, read as values.  Between the first and the
  second product the host runs one propagation step of the first product (gather at the sources, scale by the edge
  weights, scatter-add at the destinations, add the bias) and clips at zero; after the second product it runs the second
  propagation step, gathers the result at each edge's two endpoints (narrowed to sixteen bits, the identity on extended
  reals), narrows the edge attributes, cuts the first perceptron matrix into its three row blocks and turns the two
  perceptron biases into one-row matrices.  Each lemma says what one buffer holds at a region's entry, as the graph
  network's named function of the arguments and of the previous region's output array, at every float instance.
-/
import proofs.«169596_j25220047962748_1_alg».proof.Proof.ChainKeep

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The rows of a node table at each edge's wrapped endpoint, the table first narrowed to sixteen bits (the identity
    on extended reals). -/
def rows16 (h : FVec F S100000x64 .f32) (v : IVec S1600000 32) : FVec F S1600000x64 .bf16 :=
  Host.gather gather_S100000x64_S1600000x1_S1600000x64_1_0_n_n_0_1_164 (truncf .bf16 h bitsLt_bf16_f32)
    (broadcastInDim S1600000x1 ![0] bcast_S1600000_S1600000x1_0 (Cert.Graph.wrapEdge v))

set_option maxHeartbeats 4000000 in
/-- Between the first and the second product: one propagation step of the first product with bias `b1`, clipped at zero. -/
theorem W4_v44 (c : Dev nD) : W4 m ρ c (Proc.devRef .tc main_v44)
    = Cert.Graph.reluNodes (Cert.Graph.propagate (W2 m ρ c (Proc.devRef .tc main_v27)) (m ((c : Thread nD τ).loc main_arg4)) (m ((c : Thread nD τ).loc main_arg1))) := by
  show StableHlo.after hostOps1_1 (StableHlo.after hostOps1 (W2 m ρ c)) (Proc.devRef .tc main_v44) = _
  after_results_simp
  rw [W2_v5, W2_v6, W2_v26, W2_arg4]
  rfl

set_option maxHeartbeats 4000000 in
/-- After the second product: the second propagation step with bias `b2`, gathered at each edge's source. -/
theorem W6_v69 (c : Dev nD) : W6 m ρ c (Proc.devRef .tc main_v69)
    = rows16 (Cert.Graph.propagate (W5 m ρ c (Proc.devRef .tc main_v45)) (m ((c : Thread nD τ).loc main_arg6)) (m ((c : Thread nD τ).loc main_arg1))) (Cert.Graph.srcIds (m ((c : Thread nD τ).loc main_arg1))) := by
  show StableHlo.after hostOps2 (W5 m ρ c) (Proc.devRef .tc main_v69) = _
  after_results_simp
  rw [W5_v5, W5_v6, W5_v26, W5_arg6, W5_v1]
  rfl

set_option maxHeartbeats 4000000 in
/-- The same gathered at each edge's destination. -/
theorem W6_v76 (c : Dev nD) : W6 m ρ c (Proc.devRef .tc main_v76)
    = rows16 (Cert.Graph.propagate (W5 m ρ c (Proc.devRef .tc main_v45)) (m ((c : Thread nD τ).loc main_arg6)) (m ((c : Thread nD τ).loc main_arg1))) (Cert.Graph.dstIds (m ((c : Thread nD τ).loc main_arg1))) := by
  show StableHlo.after hostOps2 (W5 m ρ c) (Proc.devRef .tc main_v76) = _
  after_results_simp
  rw [W5_v5, W5_v6, W5_v26, W5_arg6, W5_v3]
  rfl

/-- The edge attributes narrowed to sixteen bits. -/
theorem W6_v77 (c : Dev nD) : W6 m ρ c (Proc.devRef .tc main_v77) = truncf .bf16 (m ((c : Thread nD τ).loc main_arg2)) bitsLt_bf16_f32 := by
  show StableHlo.after hostOps2 (W5 m ρ c) (Proc.devRef .tc main_v77) = _
  after_results_simp
  rw [W5_arg2]

/-- Rows 0 … 63 of the first perceptron matrix. -/
theorem W6_v78 (c : Dev nD) : W6 m ρ c (Proc.devRef .tc main_v78) = extractStridedSlice S64x64 ![0, 0] (m ((c : Thread nD τ).loc main_arg7)) slices_S144x64_S64x64_0_0 := by
  show StableHlo.after hostOps2 (W5 m ρ c) (Proc.devRef .tc main_v78) = _
  after_results_simp
  rw [W5_arg7]

/-- Rows 64 … 127. -/
theorem W6_v79 (c : Dev nD) : W6 m ρ c (Proc.devRef .tc main_v79) = extractStridedSlice S64x64 ![64, 0] (m ((c : Thread nD τ).loc main_arg7)) slices_S144x64_S64x64_64_0 := by
  show StableHlo.after hostOps2 (W5 m ρ c) (Proc.devRef .tc main_v79) = _
  after_results_simp
  rw [W5_arg7]

/-- Rows 128 … 143. -/
theorem W6_v80 (c : Dev nD) : W6 m ρ c (Proc.devRef .tc main_v80) = extractStridedSlice S16x64 ![128, 0] (m ((c : Thread nD τ).loc main_arg7)) slices_S144x64_S16x64_128_0 := by
  show StableHlo.after hostOps2 (W5 m ρ c) (Proc.devRef .tc main_v80) = _
  after_results_simp
  rw [W5_arg7]

/-- The first perceptron bias as a one-row matrix. -/
theorem W6_v81 (c : Dev nD) : W6 m ρ c (Proc.devRef .tc main_v81) = shapeCast S1x64 (m ((c : Thread nD τ).loc main_arg8)) shapeCasts_S64_S1x64 := by
  show StableHlo.after hostOps2 (W5 m ρ c) (Proc.devRef .tc main_v81) = _
  after_results_simp
  rw [W5_arg8]
  rfl

/-- The second perceptron bias as a one-row matrix. -/
theorem W6_v82 (c : Dev nD) : W6 m ρ c (Proc.devRef .tc main_v82) = shapeCast S1x5 (m ((c : Thread nD τ).loc main_arg10)) shapeCasts_S5_S1x5 := by
  show StableHlo.after hostOps2 (W5 m ρ c) (Proc.devRef .tc main_v82) = _
  after_results_simp
  rw [W5_arg10]
  rfl

end Cert.KernelIdeal.Chain

end
-- ==== Proof.Sums.lean ====
/-
  The three matrix stages of the network written as plain sums over the extended reals, index by index,
  over literal shapes: a product of a [100000, 32] (or [100000, 64]) table with a weight matrix is, at row `p`
  and column `q`, the sum over the inner index `k` of `x[p, k] * w[k, q]`; the edge perceptron on a row split in
  three pieces is the sum of the three pieces' products with the matching row blocks of the first weight matrix,
  plus the bias, clipped at zero, times the second weight matrix, plus the second bias.
-/
import Idealize.ShloMosaic.Lib.ValueIdx

noncomputable section

open scoped BigOperators

namespace Cert.Graph

open Idealize.ShloMosaic Idealize.ShloMosaic.ValueIdx

/-- `x * w` for `x : [100000, 32]`, `w : [32, 64]`. -/
def mm32 (x : (⟨2, ![100000, 32]⟩ : Shape).Idx → EReal) (w : (⟨2, ![32, 64]⟩ : Shape).Idx → EReal) :
    (⟨2, ![100000, 64]⟩ : Shape).Idx → EReal :=
  fun i => ∑ k : Fin 32, x (ix2 (i 0) k) * w (ix2 k (i 1))

/-- `h * w` for `h : [100000, 64]`, `w : [64, 64]`. -/
def mm64 (h : (⟨2, ![100000, 64]⟩ : Shape).Idx → EReal) (w : (⟨2, ![64, 64]⟩ : Shape).Idx → EReal) :
    (⟨2, ![100000, 64]⟩ : Shape).Idx → EReal :=
  fun i => ∑ k : Fin 64, h (ix2 (i 0) k) * w (ix2 k (i 1))

/-- The hidden layer of the edge perceptron before clipping, at edge `e` and hidden unit `j`, from the three pieces of
    the row and the three row blocks of the first weight matrix. -/
def hidden3 (hs hd : (⟨2, ![1600000, 64]⟩ : Shape).Idx → EReal) (ea : (⟨2, ![1600000, 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (e : Fin 1600000) (j : Fin 64) : EReal :=
  (∑ k : Fin 64, hs (ix2 e k) * ws (ix2 k j)) + (∑ k : Fin 64, hd (ix2 e k) * wd (ix2 k j))
    + (∑ k : Fin 16, ea (ix2 e k) * we (ix2 k j)) + b1 (ix2 (0 : Fin 1) j)

/-- The edge perceptron on a row given in three pieces. -/
def mlp3 (hs hd : (⟨2, ![1600000, 64]⟩ : Shape).Idx → EReal) (ea : (⟨2, ![1600000, 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (w2 : (⟨2, ![64, 5]⟩ : Shape).Idx → EReal)
    (b2 : (⟨2, ![1, 5]⟩ : Shape).Idx → EReal) : (⟨2, ![1600000, 5]⟩ : Shape).Idx → EReal :=
  fun i => (∑ j : Fin 64, max (hidden3 hs hd ea ws wd we b1 (i 0) j) 0 * w2 (ix2 j (i 1))) + b2 (ix2 (0 : Fin 1) (i 1))

end Cert.Graph

end
-- ==== Proof.Region0.lean ====
import proofs.«169596_j25220047962748_1_alg».proof.Proof.Gen.KernelIdeal.Frame
import proofs.«169596_j25220047962748_1_alg».proof.Proof.Sums
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's product at an index

The dimension numbers of the body's product contract axis 1 of the left operand with axis 0 of the right one and
keep the other two axes in order: at output index `(p, q)` and contraction coordinate `k` the operands are read at
`(p, k)` and `(k, q)`. -/

theorem lhs_axis0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_axis1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs_axis0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs_axis1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The body's payload at row `p` and column `q` of its block: the format changes are the identity on extended
    reals and the product into the zero accumulator is the plain sum over the inner index. -/
theorem pay_apply (x0 : Vec Ideal S5000x32 .f32) (x1 : Vec Ideal S32x64 .f32) (p : Fin 5000) (q : Fin 64) :
    k0_pay1 x0 x1 (ix2 p q) = ∑ k : Fin 32, x0 (ix2 p k) * x1 (ix2 k q) := by
  unfold k0_pay1
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S5000x32_S32x64_S5000x64_1_0_0_1_n_n.rhsIdx (ix2 p q) ((contrEquiv1 dot_S5000x32_S32x64_S5000x64_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]
  rfl

/-! ## From blocks to the array -/

theorem zeros2 : (![0, 0] : Fin 2 → Nat) = fun _ => 0 := funext fun a => by fin_cases a <;> rfl

/-- The printed index maps over the 20 grid points: the left operand's row block moves with the output's, both at
    the point's own number; the weight is one block at block index (0, 0); no window moves along the columns. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

section Blocks
variable (V : (c : Dev nD) → (b : Ref sig .tc) → Buf (Elt Ideal) ((c : Thread nD τ).loc b))

/-- The left operand's block at point `t` is rows `5000 t …` of the array: its element `(p, k)` is the array's at
    row `r` when `r` is the output block's first row plus `p`. -/
theorem xblk_apply (c : Dev nD) (t : Fin cfg0.N) (p : Fin 5000) (k : Fin 32) (r : Fin 100000)
    (hr : r.val = win0_2.index t (0 : Fin 2) * 5000 + p.val) :
    (iblk0 V c 0 t : Vec Ideal S5000x32 .f32) (ix2 p k) = (V c main_arg0 : S100000x32.Idx → EReal) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 32 + 1 * k.val = k.val; omega

/-- The weight's block at every point is the whole matrix. -/
theorem wblk_apply (c : Dev nD) (t : Fin cfg0.N) (k : Fin 32) (q : Fin 64) :
    (iblk0 V c 1 t : Vec Ideal S32x64 .f32) (ix2 k q) = (V c main_arg3 : S32x64.Idx → EReal) (ix2 k q) := by
  obtain ⟨-, -, e2, e3, -, -⟩ := idx_facts t
  unfold iblk0
  rw [View.read_apply]
  show V c main_arg3 _ = V c main_arg3 _
  congr 1
  funext a
  apply Fin.ext
  match a with
  | ⟨0, _⟩ => show win0_1.index t (0 : Fin 2) * 32 + 1 * k.val = k.val; omega
  | ⟨1, _⟩ => show win0_1.index t (1 : Fin 2) * 64 + 1 * q.val = q.val; omega

end Blocks

/-- One element of a block's payload against the whole arrays: if row `p` of the left block is row `r` of the array
    `X` and column `q` of the weight's block is column `q` of the matrix `W`, the payload at `(p, q)` is the product
    `X * W` at `(r, q)`: the two sums run over the same inner index, term by term. -/
theorem pay_eq_mm32 (x0 : Vec Ideal S5000x32 .f32) (x1 : Vec Ideal S32x64 .f32)
    (X : S100000x32.Idx → EReal) (W : S32x64.Idx → EReal) (r : Fin 100000) (p : Fin 5000) (q : Fin 64)
    (h0 : ∀ k : Fin 32, x0 (ix2 p k) = X (ix2 r k)) (h1 : ∀ k : Fin 32, x1 (ix2 k q) = W (ix2 k q)) :
    k0_pay1 x0 x1 (ix2 p q) = Cert.Graph.mm32 X W (ix2 r q) := by
  refine (pay_apply x0 x1 p q).trans ?_
  show _ = ∑ k : Fin 32, X (ix2 r k) * W (ix2 k q)
  exact Finset.sum_congr rfl fun k _ => by rw [h0 k, h1 k]

section Flush
variable (V : (c : Dev nD) → (b : Ref sig .tc) → Buf (Elt Ideal) ((c : Thread nD τ).loc b))

/-- What point `t` writes back is block `t` of the product of the two arrays as the region finds them: the body's
    payload at `(p, q)` sums over the inner index the left block's row `p` against the weight's column `q`, and the
    left block's row `p` is the array's row `5000 t + p`, the row the output's block puts `p` at. -/
theorem flushed_eq (c : Dev nD) (t : Fin cfg0.N) :
    (dat0 V c).flushed 2 t = ((cfg0.win 2).blk t).view.read (Elt Ideal) (Cert.Graph.mm32 (V c main_arg0) (V c main_arg3)) := by
  show (cfg0.win 2).cut (grid0.coords t) ((dat0 V c).after 2 t) = _
  rw [after0_2]
  unfold out0_2
  rw [View.canon_unit_zero zeros2]
  simp only [View.ld_unit_zero (S := S5000x32) zeros2, View.ld_unit_zero (S := S32x64) zeros2]
  refine funext fun (j : S5000x64.Idx) => ?_
  obtain ⟨p, q, rfl⟩ : ∃ (p : Fin 5000) (q : Fin 64), j = ix2 p q := ⟨j 0, j 1, eq_ix2 j⟩
  obtain ⟨-, -, -, -, e4, e5⟩ := idx_facts t
  have ht : t.val < 20 := lt_of_lt_of_eq t.isLt N_0
  have hr : win0_2.index t (0 : Fin 2) * 5000 + p.val < 100000 := by have := p.isLt; omega
  rw [View.read_apply]
  have hemb : ((View.whole main_v27).slice ((win0 2).rect t)).emb (ix2 p q)
      = (ix2 (⟨win0_2.index t (0 : Fin 2) * 5000 + p.val, hr⟩ : Fin 100000) q : S100000x64.Idx) := by
    funext a
    apply Fin.ext
    match a with
    | ⟨0, _⟩ => show win0_2.index t (0 : Fin 2) * 5000 + 1 * p.val = win0_2.index t (0 : Fin 2) * 5000 + p.val; omega
    | ⟨1, _⟩ => show win0_2.index t (1 : Fin 2) * 64 + 1 * q.val = q.val; omega
  rw [hemb]
  exact pay_eq_mm32 (iblk0 V c 0 t) (iblk0 V c 1 t) (V c main_arg0) (V c main_arg3) ⟨_, hr⟩ p q
    (fun k => xblk_apply V c t p k ⟨_, hr⟩ rfl) (fun k => wblk_apply V c t k q)

end Flush

/-! ## The blocks cover the array -/

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Row `r` of the array is in the block of point `r / 5000`, whose rows are `5000 (r / 5000) …`, and every column is in
    the one column block: the 20 row blocks tile the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After all 20 points the output array is the product of the region-entry arrays: every point writes back its block
    of that product, and the blocks cover the array. -/
theorem final0 (V : (c : Dev nD) → (b : Ref sig .tc) → Buf (Elt Ideal) ((c : Thread nD τ).loc b)) (c : Dev nD) :
    (dat0 V c).arrAt 2 cfg0.N = Cert.Graph.mm32 (V c main_arg0) (V c main_arg3) := by
  exact (dat0 V c).arrAt_eq_of_cover 2 (Cert.Graph.mm32 (V c main_arg0) (V c main_arg3)) (fun t _ => flushed_eq V c t) cover

end Cert.KernelIdeal.Region0

end
-- ==== Proof.Region1.lean ====
import proofs.«169596_j25220047962748_1_alg».proof.Proof.Gen.KernelIdeal.Frame
import proofs.«169596_j25220047962748_1_alg».proof.Proof.Sums
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index

The body's one stored value is the product of the row block (cast to its own shape, then narrowed: both the
identity on extended reals) with the weight matrix (narrowed: the identity), accumulated into zero: at row
`p` and column `q` the sum over the inner index `k` of `x[p, k] * w[k, q]`. -/

/-- The left operand's index at output index `i` and contraction position `q`: its row is the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and its column is the contraction position. -/
theorem lhs_inner (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contraction position … -/
theorem rhs_inner (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and its column is the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The stored block at row `p`, column `q`: the inner product of the row block's row `p` with the weight
    matrix's column `q`. -/
theorem block_product (x0 : Vec Ideal S5000x64 .f32) (x1 : Vec Ideal S64x64 .f32) (p : Fin 5000) (q : Fin 64) :
    k1_pay1 x0 x1 (ix2 p q) = ∑ k : Fin 64, x0 (ix2 p k) * x1 (ix2 k q) := by
  unfold k1_pay1
  simp only [matmul]
  rw [shapeCast_self]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_inner _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_inner _ _).trans hk
    | ⟨1, _⟩ => exact rhs_col _ _)
  rw [el, er]
  rfl

/-! ## What a grid point writes back

At point `t` the pipeline writes the stored block back to the output array's rows `5000 * t …`; the row block it
was computed from is the same rows of the input table and the weight block is the whole weight matrix, so the
block written back is the matching block of the whole product. -/

/-- The whole-block access starts at offset zero on both axes. -/
theorem zero_offsets : (![0, 0] : Fin 2 → Nat) = fun _ => 0 := funext fun a => by
  match a with
  | ⟨0, _⟩ => rfl
  | ⟨1, _⟩ => rfl

/-- The printed index maps over the grid: the input table's block moves with the output's along the rows, which
    is the point's number; every other block index is `0`. -/
theorem index_maps : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- A stored block entry is the whole product's entry at array index `i`, once row `p` of the row block is row
    `i 0` of the table and column `q` of the weight block is column `i 1` of the weight matrix. -/
theorem block_entry (h : S100000x64.Idx → EReal) (w : S64x64.Idx → EReal)
    (xb : Vec Ideal S5000x64 .f32) (wb : Vec Ideal S64x64 .f32) (p : Fin 5000) (q : Fin 64) (i : S100000x64.Idx)
    (hx : ∀ k : Fin 64, xb (ix2 p k) = h (ix2 (i 0) k)) (hw : ∀ k : Fin 64, wb (ix2 k q) = w (ix2 k (i 1))) :
    k1_pay1 xb wb (ix2 p q) = Cert.Graph.mm64 h w i := by
  refine (block_product xb wb p q).trans ?_
  unfold Cert.Graph.mm64
  exact Finset.sum_congr rfl fun k _ => by rw [hx k, hw k]

/-- What point `t` writes back is block `t` of the whole product of the table and the weight matrix as the region
    finds them. -/
theorem flushed_eq (V : (c : Dev nD) → (b : Ref sig .tc) → Buf (Elt Ideal) ((c : Thread nD τ).loc b)) (c : Dev nD) (t : Fin cfg1.N) :
    (dat1 V c).flushed 2 t = ((cfg1.win 2).blk t).view.read (Elt Ideal) (Cert.Graph.mm64 (V c main_v44) (V c main_arg5)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S64x64) zero_offsets]
  obtain ⟨e0, e1, e2, e3, e4, e5⟩ := index_maps t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q) = Cert.Graph.mm64 (V c main_v44) (V c main_arg5) (((cfg1.win 2).blk t).view.emb (ix2 p q))
  refine block_entry (V c main_v44) (V c main_arg5) (iblk1 V c 0 t) (iblk1 V c 1 t) p q _ (fun k => ?_) (fun k => ?_)
  · -- the row block's row `p` is the table's row `5000 * t + p`, the output block's row
    show V c main_v44 (((cfg1.win 0).blk t).view.emb (ix2 p k)) = V c main_v44 (ix2 (((cfg1.win 2).blk t).view.emb (ix2 p q) 0) k)
    refine congrArg (V c main_v44) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * k.val = k.val; omega
  · -- the weight block is the whole weight matrix; the output block spans all 64 columns
    show V c main_arg5 (((cfg1.win 1).blk t).view.emb (ix2 k q)) = V c main_arg5 (ix2 k (((cfg1.win 2).blk t).view.emb (ix2 p q) 1))
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega

/-! ## The blocks cover the array

Point `t`'s block of the output array is rows `5000 * t … 5000 * t + 4999`, all 64 columns; row `r` lies in the
block of point `r / 5000`, and `100000 = 20 * 5000`, so the 20 blocks cover every index. -/

/-- An index of the array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every index of the output array is in the block of some point that writes back. -/
theorem covered (i : S100000x64.Idx) :
    ∃ t : Fin cfg1.N, (cfg1.win 2).flush t = true ∧ i ∈ ((cfg1.win 2).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by omega⟩, rfl⟩
  obtain ⟨e0, e1, e2, e3, e4, e5⟩ := index_maps t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-! ## The output array after all 20 points -/

theorem final1 (V : (c : Dev nD) → (b : Ref sig .tc) → Buf (Elt Ideal) ((c : Thread nD τ).loc b)) (c : Dev nD) :
    (dat1 V c).arrAt 2 cfg1.N = Cert.Graph.mm64 (V c main_v44) (V c main_arg5) := by
  exact (dat1 V c).arrAt_eq_of_cover 2 (Cert.Graph.mm64 (V c main_v44) (V c main_arg5)) (fun t _ => flushed_eq V c t) covered

end Cert.KernelIdeal.Region1

end
-- ==== Proof.Region2.lean ====
import proofs.«169596_j25220047962748_1_alg».proof.Proof.Gen.KernelIdeal.Frame
import proofs.«169596_j25220047962748_1_alg».proof.Proof.Sums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The block products read at an index

Each of the body's products goes into the zero accumulator, so at row `p` and column `q` it is the plain sum over the
inner index `k` of `x[p, k] * w[k, q]`: the contraction's one-axis index set is re-indexed by its coordinate, and the two
operand indices are read axis by axis. -/

/-! A `[8000, 64]` block of node rows times a `[64, 64]` matrix. -/
theorem lhs_node_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_node_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_node_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_node_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl
theorem mm_node_apply {φ₁ φ₂ : FTy} (x : FVec Ideal S8000x64 φ₁) (w : FVec Ideal S64x64 φ₂) (p : Fin 8000) (q : Fin 64) :
    matmul dot_S8000x64_S64x64_S8000x64_1_0_0_1_n_n none x w (constant S8000x64 .f32 0x00000000#32) (ix2 p q) = ∑ k : Fin 64, x (ix2 p k) * w (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact lhs_node_0 _ _
    | ⟨1, _⟩ => exact (lhs_node_1 _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (rhs_node_0 _ _).trans hk
    | ⟨1, _⟩ => exact rhs_node_1 _ _)
  rw [el, er]

/-! A `[8000, 16]` block of edge attributes times a `[16, 64]` matrix. -/
theorem lhs_edge_0 (i : S8000x64.Idx) (q : dot_S8000x16_S16x64_S8000x64_1_0_0_1_n_n.contr.Idx) :
    (dot_S8000x16_S16x64_S8000x64_1_0_0_1_n_n.lhsIdx i q 0).val = (i 0).val := by
  unfold DotDims.lhsIdx
  rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
  rfl
theorem lhs_edge_1 (i : S8000x64.Idx) (q : dot_S8000x16_S16x64_S8000x64_1_0_0_1_n_n.contr.Idx) :
    (dot_S8000x16_S16x64_S8000x64_1_0_0_1_n_n.lhsIdx i q 1).val = (q ⟨0, by decide⟩).val :=
  dot_S8000x16_S16x64_S8000x64_1_0_0_1_n_n.lhsIdx_val_of_single rfl i q
theorem rhs_edge_0 (i : S8000x64.Idx) (q : dot_S8000x16_S16x64_S8000x64_1_0_0_1_n_n.contr.Idx) :
    (dot_S8000x16_S16x64_S8000x64_1_0_0_1_n_n.rhsIdx i q 0).val = (q ⟨0, by decide⟩).val :=
  dot_S8000x16_S16x64_S8000x64_1_0_0_1_n_n.rhsIdx_val_of_single rfl i q
theorem rhs_edge_1 (i : S8000x64.Idx) (q : dot_S8000x16_S16x64_S8000x64_1_0_0_1_n_n.contr.Idx) :
    (dot_S8000x16_S16x64_S8000x64_1_0_0_1_n_n.rhsIdx i q 1).val = (i 1).val := by
  unfold DotDims.rhsIdx
  rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
  rfl
theorem mm_edge_apply {φ₁ φ₂ : FTy} (x : FVec Ideal S8000x16 φ₁) (w : FVec Ideal S16x64 φ₂) (p : Fin 8000) (q : Fin 64) :
    matmul dot_S8000x16_S16x64_S8000x64_1_0_0_1_n_n none x w (constant S8000x64 .f32 0x00000000#32) (ix2 p q) = ∑ k : Fin 16, x (ix2 p k) * w (ix2 k q) := by
  simp only [matmul]
  rw [Ideal.matmul_constant_zero_apply, ← Equiv.sum_comp (contrEquiv1 dot_S8000x16_S16x64_S8000x64_1_0_0_1_n_n 16 rfl rfl).symm]
  refine Finset.sum_congr rfl fun k _ => ?_
  have hk := contrEquiv1_symm_val dot_S8000x16_S16x64_S8000x64_1_0_0_1_n_n 16 rfl rfl k
  have el : dot_S8000x16_S16x64_S8000x64_1_0_0_1_n_n.lhsIdx (ix2 p q) ((contrEquiv1 dot_S8000x16_S16x64_S8000x64_1_0_0_1_n_n 16 rfl rfl).symm k) = ix2 p k := funext fun a => Fin.ext (by
    match a with
    | ⟨0, _⟩ => exact lhs_edge_0 _ _
    | ⟨1, _⟩ => exact (lhs_edge_1 _ _).trans hk)
  have er : dot_S8000x16_S16x64_S8000x64_1_0_0_1_n_n.rhsIdx (ix2 p q) ((contrEquiv1 dot_S8000x16_S16x64_S8000x64_1_0_0_1_n_n 16 rfl rfl).symm k) = ix2 k q := funext fun a => Fin.ext (by
    match a with
    | ⟨0, _⟩ => exact (rhs_edge_0 _ _).trans hk
    | ⟨1, _⟩ => exact rhs_edge_1 _ _)
  rw [el, er]

/-! The `[8000, 64]` hidden block times the `[64, 5]` output matrix. -/
theorem lhs_out_0 (i : S8000x5.Idx) (q : dot_S8000x64_S64x5_S8000x5_1_0_0_1_n_n.contr.Idx) :
    (dot_S8000x64_S64x5_S8000x5_1_0_0_1_n_n.lhsIdx i q 0).val = (i 0).val := by
  unfold DotDims.lhsIdx
  rw [dif_neg (show ¬(0 : Fin S8000x64.rank) ∈ dot_S8000x64_S64x5_S8000x5_1_0_0_1_n_n.lhsBatch by decide), dif_pos (show (0 : Fin S8000x64.rank) ∈ dot_S8000x64_S64x5_S8000x5_1_0_0_1_n_n.lhsNonContracting by decide)]
  rfl
theorem lhs_out_1 (i : S8000x5.Idx) (q : dot_S8000x64_S64x5_S8000x5_1_0_0_1_n_n.contr.Idx) :
    (dot_S8000x64_S64x5_S8000x5_1_0_0_1_n_n.lhsIdx i q 1).val = (q ⟨0, by decide⟩).val :=
  dot_S8000x64_S64x5_S8000x5_1_0_0_1_n_n.lhsIdx_val_of_single rfl i q
theorem rhs_out_0 (i : S8000x5.Idx) (q : dot_S8000x64_S64x5_S8000x5_1_0_0_1_n_n.contr.Idx) :
    (dot_S8000x64_S64x5_S8000x5_1_0_0_1_n_n.rhsIdx i q 0).val = (q ⟨0, by decide⟩).val :=
  dot_S8000x64_S64x5_S8000x5_1_0_0_1_n_n.rhsIdx_val_of_single rfl i q
theorem rhs_out_1 (i : S8000x5.Idx) (q : dot_S8000x64_S64x5_S8000x5_1_0_0_1_n_n.contr.Idx) :
    (dot_S8000x64_S64x5_S8000x5_1_0_0_1_n_n.rhsIdx i q 1).val = (i 1).val := by
  unfold DotDims.rhsIdx
  rw [dif_neg (show ¬(1 : Fin S64x5.rank) ∈ dot_S8000x64_S64x5_S8000x5_1_0_0_1_n_n.rhsBatch by decide), dif_pos (show (1 : Fin S64x5.rank) ∈ dot_S8000x64_S64x5_S8000x5_1_0_0_1_n_n.rhsNonContracting by decide)]
  rfl
theorem mm_out_apply {φ₁ φ₂ : FTy} (x : FVec Ideal S8000x64 φ₁) (w : FVec Ideal S64x5 φ₂) (p : Fin 8000) (q : Fin 5) :
    matmul dot_S8000x64_S64x5_S8000x5_1_0_0_1_n_n none x w (constant S8000x5 .f32 0x00000000#32) (ix2 p q) = ∑ k : Fin 64, x (ix2 p k) * w (ix2 k q) := by
  simp only [matmul]
  rw [Ideal.matmul_constant_zero_apply, ← Equiv.sum_comp (contrEquiv1 dot_S8000x64_S64x5_S8000x5_1_0_0_1_n_n 64 rfl rfl).symm]
  refine Finset.sum_congr rfl fun k _ => ?_
  have hk := contrEquiv1_symm_val dot_S8000x64_S64x5_S8000x5_1_0_0_1_n_n 64 rfl rfl k
  have el : dot_S8000x64_S64x5_S8000x5_1_0_0_1_n_n.lhsIdx (ix2 p q) ((contrEquiv1 dot_S8000x64_S64x5_S8000x5_1_0_0_1_n_n 64 rfl rfl).symm k) = ix2 p k := funext fun a => Fin.ext (by
    match a with
    | ⟨0, _⟩ => exact lhs_out_0 _ _
    | ⟨1, _⟩ => exact (lhs_out_1 _ _).trans hk)
  have er : dot_S8000x64_S64x5_S8000x5_1_0_0_1_n_n.rhsIdx (ix2 p q) ((contrEquiv1 dot_S8000x64_S64x5_S8000x5_1_0_0_1_n_n 64 rfl rfl).symm k) = ix2 k q := funext fun a => Fin.ext (by
    match a with
    | ⟨0, _⟩ => exact (rhs_out_0 _ _).trans hk
    | ⟨1, _⟩ => exact rhs_out_1 _ _)
  rw [el, er]

/-! ## The body's arithmetic at an index

The payload is the three products summed left to right, plus the first bias row repeated down the block, clipped below
at zero, times the output matrix, plus the second bias row repeated down the block. The format changes and the
same-shape casts are the identity on extended reals, and the clip's constant is the real zero. -/

theorem pay_apply (x0 x1 : Vec Ideal S8000x64 .bf16) (x2 : Vec Ideal S8000x16 .bf16) (w3 w4 : Vec Ideal S64x64 .f32)
    (w5 : Vec Ideal S16x64 .f32) (b6 : Vec Ideal S1x64 .f32) (w7 : Vec Ideal S64x5 .f32) (b8 : Vec Ideal S1x5 .f32)
    (p : Fin 8000) (q : Fin 5) :
    k2_pay1 x0 x1 x2 w3 w4 w5 b6 w7 b8 (ix2 p q) =
      (∑ j : Fin 64, max ((∑ k : Fin 64, x0 (ix2 p k) * w3 (ix2 k j)) + (∑ k : Fin 64, x1 (ix2 p k) * w4 (ix2 k j))
          + (∑ k : Fin 16, x2 (ix2 p k) * w5 (ix2 k j)) + b6 (ix2 (0 : Fin 1) j)) 0 * w7 (ix2 j q))
        + b8 (ix2 (0 : Fin 1) q) := by
  unfold k2_pay1
  simp only [shapeCast_self]
  rw [addf_apply, mm_out_apply, broadcastTo_1b_ab_apply]
  refine congrArg (· + b8 (ix2 (0 : Fin 1) q)) (Finset.sum_congr rfl fun j _ => ?_)
  rw [truncf_apply, truncf_apply, maximumf_apply, broadcast_apply, addf_apply, addf_apply, addf_apply,
    mm_node_apply, mm_node_apply, mm_edge_apply, broadcastTo_1b_ab_apply]
  simp only [truncf_apply]
  show max _ (Ideal.ofBits .f32 0x00000000#32) * _ = _
  rw [Ideal.ofBits_zero_f32]

/-! ## One row of a block against the whole arrays

If row `p` of the three row-blocked operands is row `e` of their arrays, and the weight and bias blocks are the whole
weight and bias arrays, then the payload at `(p, q)` is the perceptron of the arrays at `(e, q)`: the two are the same
sums, term by term. -/

theorem pay_eq_mlp3 (hs hd : S1600000x64.Idx → EReal) (ea : S1600000x16.Idx → EReal) (ws wd : S64x64.Idx → EReal)
    (we : S16x64.Idx → EReal) (b1 : S1x64.Idx → EReal) (w2 : S64x5.Idx → EReal) (b2 : S1x5.Idx → EReal)
    (x0 x1 : Vec Ideal S8000x64 .bf16) (x2 : Vec Ideal S8000x16 .bf16) (w3 w4 : Vec Ideal S64x64 .f32)
    (w5 : Vec Ideal S16x64 .f32) (b6 : Vec Ideal S1x64 .f32) (w7 : Vec Ideal S64x5 .f32) (b8 : Vec Ideal S1x5 .f32)
    (p : Fin 8000) (q : Fin 5) (e : Fin 1600000)
    (h0 : ∀ k : Fin 64, x0 (ix2 p k) = hs (ix2 e k)) (h1 : ∀ k : Fin 64, x1 (ix2 p k) = hd (ix2 e k))
    (h2 : ∀ k : Fin 16, x2 (ix2 p k) = ea (ix2 e k))
    (h3 : ∀ k j : Fin 64, w3 (ix2 k j) = ws (ix2 k j)) (h4 : ∀ k j : Fin 64, w4 (ix2 k j) = wd (ix2 k j))
    (h5 : ∀ (k : Fin 16) (j : Fin 64), w5 (ix2 k j) = we (ix2 k j))
    (h6 : ∀ j : Fin 64, b6 (ix2 (0 : Fin 1) j) = b1 (ix2 (0 : Fin 1) j))
    (h7 : ∀ j : Fin 64, w7 (ix2 j q) = w2 (ix2 j q)) (h8 : b8 (ix2 (0 : Fin 1) q) = b2 (ix2 (0 : Fin 1) q)) :
    k2_pay1 x0 x1 x2 w3 w4 w5 b6 w7 b8 (ix2 p q) = Cert.Graph.mlp3 hs hd ea ws wd we b1 w2 b2 (ix2 e q) := by
  rw [pay_apply]
  show _ = (∑ j : Fin 64, max (Cert.Graph.hidden3 hs hd ea ws wd we b1 e j) 0 * w2 (ix2 j q)) + b2 (ix2 (0 : Fin 1) q)
  unfold Cert.Graph.hidden3
  simp only [h0, h1, h2, h3, h4, h5, h6, h7, h8]

/-! ## The windows' index maps, decided over the grid

At point `t` the three row-blocked operands and the output are at block row `t`, block column 0; each weight and bias
operand is its one block at `(0, 0)`. -/

theorem idx_facts : ∀ t : Fin cfg2.N,
    win2_9.index t (0 : Fin 2) = t.val ∧ win2_9.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-! ## Each input block read off its array

A block's index `(a, b)` sits in the array at `(block row * rows per block + a, block column * columns per block + b)`.
With the index maps above, row `p` of a row-blocked operand's block at point `t` is row `8000 * t + p` of its array, and a
weight or bias block is its whole array. -/

section AtEntry

variable (V : (c : Dev nD) → (b : Ref sig .tc) → Buf (Elt Ideal) ((c : Thread nD τ).loc b))

/-- The source-node rows. -/
theorem read_hs (c : Dev nD) (t : Fin cfg2.N) (p : Fin 8000) (k : Fin 64) (e : Fin 1600000)
    (he : e.val = t.val * 8000 + p.val) :
    (iblk2 V c 0 t : Vec Ideal S8000x64 .bf16) (ix2 p k) = V c main_v69 (ix2 e k) := by
  unfold iblk2
  show V c main_v69 (((cfg2.win 0).blk t).view.emb (ix2 p k)) = _
  refine congrArg (V c main_v69) (funext fun a => Fin.ext ?_)
  have f := idx_facts t
  match a with
  | ⟨0, _⟩ => show win2_0.index t (0 : Fin 2) * 8000 + 1 * p.val = e.val; omega
  | ⟨1, _⟩ => show win2_0.index t (1 : Fin 2) * 64 + 1 * k.val = k.val; omega

/-- The destination-node rows. -/
theorem read_hd (c : Dev nD) (t : Fin cfg2.N) (p : Fin 8000) (k : Fin 64) (e : Fin 1600000)
    (he : e.val = t.val * 8000 + p.val) :
    (iblk2 V c 1 t : Vec Ideal S8000x64 .bf16) (ix2 p k) = V c main_v76 (ix2 e k) := by
  unfold iblk2
  show V c main_v76 (((cfg2.win 1).blk t).view.emb (ix2 p k)) = _
  refine congrArg (V c main_v76) (funext fun a => Fin.ext ?_)
  have f := idx_facts t
  match a with
  | ⟨0, _⟩ => show win2_1.index t (0 : Fin 2) * 8000 + 1 * p.val = e.val; omega
  | ⟨1, _⟩ => show win2_1.index t (1 : Fin 2) * 64 + 1 * k.val = k.val; omega

/-- The edge-attribute rows. -/
theorem read_ea (c : Dev nD) (t : Fin cfg2.N) (p : Fin 8000) (k : Fin 16) (e : Fin 1600000)
    (he : e.val = t.val * 8000 + p.val) :
    (iblk2 V c 2 t : Vec Ideal S8000x16 .bf16) (ix2 p k) = V c main_v77 (ix2 e k) := by
  unfold iblk2
  show V c main_v77 (((cfg2.win 2).blk t).view.emb (ix2 p k)) = _
  refine congrArg (V c main_v77) (funext fun a => Fin.ext ?_)
  have f := idx_facts t
  match a with
  | ⟨0, _⟩ => show win2_2.index t (0 : Fin 2) * 8000 + 1 * p.val = e.val; omega
  | ⟨1, _⟩ => show win2_2.index t (1 : Fin 2) * 16 + 1 * k.val = k.val; omega

/-- The first layer's weights on the source rows. -/
theorem read_ws (c : Dev nD) (t : Fin cfg2.N) (k : Fin 64) (j : Fin 64) :
    (iblk2 V c 3 t : Vec Ideal S64x64 .f32) (ix2 k j) = V c main_v78 (ix2 k j) := by
  unfold iblk2
  show V c main_v78 (((cfg2.win 3).blk t).view.emb (ix2 k j)) = _
  refine congrArg (V c main_v78) (funext fun a => Fin.ext ?_)
  have f := idx_facts t
  match a with
  | ⟨0, _⟩ => show win2_3.index t (0 : Fin 2) * 64 + 1 * k.val = k.val; omega
  | ⟨1, _⟩ => show win2_3.index t (1 : Fin 2) * 64 + 1 * j.val = j.val; omega

/-- The first layer's weights on the destination rows. -/
theorem read_wd (c : Dev nD) (t : Fin cfg2.N) (k : Fin 64) (j : Fin 64) :
    (iblk2 V c 4 t : Vec Ideal S64x64 .f32) (ix2 k j) = V c main_v79 (ix2 k j) := by
  unfold iblk2
  show V c main_v79 (((cfg2.win 4).blk t).view.emb (ix2 k j)) = _
  refine congrArg (V c main_v79) (funext fun a => Fin.ext ?_)
  have f := idx_facts t
  match a with
  | ⟨0, _⟩ => show win2_4.index t (0 : Fin 2) * 64 + 1 * k.val = k.val; omega
  | ⟨1, _⟩ => show win2_4.index t (1 : Fin 2) * 64 + 1 * j.val = j.val; omega

/-- The first layer's weights on the edge attributes. -/
theorem read_we (c : Dev nD) (t : Fin cfg2.N) (k : Fin 16) (j : Fin 64) :
    (iblk2 V c 5 t : Vec Ideal S16x64 .f32) (ix2 k j) = V c main_v80 (ix2 k j) := by
  unfold iblk2
  show V c main_v80 (((cfg2.win 5).blk t).view.emb (ix2 k j)) = _
  refine congrArg (V c main_v80) (funext fun a => Fin.ext ?_)
  have f := idx_facts t
  match a with
  | ⟨0, _⟩ => show win2_5.index t (0 : Fin 2) * 16 + 1 * k.val = k.val; omega
  | ⟨1, _⟩ => show win2_5.index t (1 : Fin 2) * 64 + 1 * j.val = j.val; omega

/-- The first bias row. -/
theorem read_b1 (c : Dev nD) (t : Fin cfg2.N) (k : Fin 1) (j : Fin 64) :
    (iblk2 V c 6 t : Vec Ideal S1x64 .f32) (ix2 k j) = V c main_v81 (ix2 k j) := by
  unfold iblk2
  show V c main_v81 (((cfg2.win 6).blk t).view.emb (ix2 k j)) = _
  refine congrArg (V c main_v81) (funext fun a => Fin.ext ?_)
  have f := idx_facts t
  match a with
  | ⟨0, _⟩ => show win2_6.index t (0 : Fin 2) * 1 + 1 * k.val = k.val; omega
  | ⟨1, _⟩ => show win2_6.index t (1 : Fin 2) * 64 + 1 * j.val = j.val; omega

/-- The second layer's weights. -/
theorem read_w2 (c : Dev nD) (t : Fin cfg2.N) (k : Fin 64) (j : Fin 5) :
    (iblk2 V c 7 t : Vec Ideal S64x5 .f32) (ix2 k j) = V c main_arg9 (ix2 k j) := by
  unfold iblk2
  show V c main_arg9 (((cfg2.win 7).blk t).view.emb (ix2 k j)) = _
  refine congrArg (V c main_arg9) (funext fun a => Fin.ext ?_)
  have f := idx_facts t
  match a with
  | ⟨0, _⟩ => show win2_7.index t (0 : Fin 2) * 64 + 1 * k.val = k.val; omega
  | ⟨1, _⟩ => show win2_7.index t (1 : Fin 2) * 5 + 1 * j.val = j.val; omega

/-- The second bias row. -/
theorem read_b2 (c : Dev nD) (t : Fin cfg2.N) (k : Fin 1) (j : Fin 5) :
    (iblk2 V c 8 t : Vec Ideal S1x5 .f32) (ix2 k j) = V c main_v82 (ix2 k j) := by
  unfold iblk2
  show V c main_v82 (((cfg2.win 8).blk t).view.emb (ix2 k j)) = _
  refine congrArg (V c main_v82) (funext fun a => Fin.ext ?_)
  have f := idx_facts t
  match a with
  | ⟨0, _⟩ => show win2_8.index t (0 : Fin 2) * 1 + 1 * k.val = k.val; omega
  | ⟨1, _⟩ => show win2_8.index t (1 : Fin 2) * 5 + 1 * j.val = j.val; omega

/-! ## What a point writes back

The output's staging buffer after the body at point `t` is the payload of the input blocks, and the output's block at
`t` is rows `8000 * t ...` of its array: so point `t` writes back block `t` of the perceptron of the region-entry arrays. -/

theorem zero_offsets : (![0, 0] : Fin 2 → Nat) = fun _ => 0 := funext fun a => by
  match a with
  | ⟨0, _⟩ => rfl
  | ⟨1, _⟩ => rfl

theorem flushed_eq (c : Dev nD) (t : Fin cfg2.N) :
    (dat2 V c).flushed 9 t = ((cfg2.win 9).blk t).view.read (Elt Ideal)
      (Cert.Graph.mlp3 (V c main_v69) (V c main_v76) (V c main_v77) (V c main_v78) (V c main_v79)
        (V c main_v80) (V c main_v81) (V c main_arg9) (V c main_v82)) := by
  show (cfg2.win 9).cut (grid2.coords t) ((dat2 V c).after 9 t) = _
  rw [after2_9]
  unfold out2_9
  rw [View.canon_unit_zero zero_offsets]
  simp only [View.ld_unit_zero (S := S8000x64) zero_offsets, View.ld_unit_zero (S := S8000x16) zero_offsets,
    View.ld_unit_zero (S := S64x64) zero_offsets, View.ld_unit_zero (S := S16x64) zero_offsets,
    View.ld_unit_zero (S := S1x64) zero_offsets, View.ld_unit_zero (S := S64x5) zero_offsets,
    View.ld_unit_zero (S := S1x5) zero_offsets]
  funext j
  obtain ⟨p, q, rfl⟩ : ∃ (p : Fin 8000) (q : Fin 5), j = ix2 p q := ⟨j 0, j 1, eq_ix2 j⟩
  have ht : t.val < 200 := Nat.lt_of_lt_of_eq t.isLt N_2
  have hlt : t.val * 8000 + p.val < 1600000 := by have := p.isLt; omega
  refine (pay_eq_mlp3 (V c main_v69) (V c main_v76) (V c main_v77) (V c main_v78) (V c main_v79) (V c main_v80)
    (V c main_v81) (V c main_arg9) (V c main_v82) (iblk2 V c 0 t) (iblk2 V c 1 t) (iblk2 V c 2 t) (iblk2 V c 3 t)
    (iblk2 V c 4 t) (iblk2 V c 5 t) (iblk2 V c 6 t) (iblk2 V c 7 t) (iblk2 V c 8 t) p q ⟨t.val * 8000 + p.val, hlt⟩
    (fun k => read_hs V c t p k _ rfl) (fun k => read_hd V c t p k _ rfl) (fun k => read_ea V c t p k _ rfl)
    (fun k j => read_ws V c t k j) (fun k j => read_wd V c t k j) (fun k j => read_we V c t k j)
    (fun j => read_b1 V c t 0 j) (fun j => read_w2 V c t j q) (read_b2 V c t 0 q)).trans ?_
  show _ = Cert.Graph.mlp3 _ _ _ _ _ _ _ _ _ (((cfg2.win 9).blk t).view.emb (ix2 p q))
  refine congrArg _ (funext fun a => Fin.ext ?_)
  have f := idx_facts t
  match a with
  | ⟨0, _⟩ => show t.val * 8000 + p.val = win2_9.index t (0 : Fin 2) * 8000 + 1 * p.val; omega
  | ⟨1, _⟩ => show q.val = win2_9.index t (1 : Fin 2) * 5 + 1 * q.val; omega

/-! ## The output's blocks tile its array

An index of the array is in point `t`'s block iff each coordinate is in the block's range on its axis; row `r` is in the
block of point `r / 8000`, and every column is in the one block column. -/

theorem mem_blk (t : Fin cfg2.N) (i : S1600000x5.Idx) :
    i ∈ ((cfg2.win 9).blk t).view.set ↔ ∀ a : Fin 2, win2_9.index t a * S8000x5.size a ≤ (i a).val ∧ (i a).val < win2_9.index t a * S8000x5.size a + S8000x5.size a := by
  show i ∈ ((View.whole main_v83).slice (win2_9.rect t)).set ↔ _
  rw [View.set_slice_whole, Rect.mem_set_unit]
  exact Iff.rfl

theorem cover (i : S1600000x5.Idx) :
    ∃ t : Fin cfg2.N, (cfg2.win 9).flush t = true ∧ i ∈ ((cfg2.win 9).blk t).view.set := by
  have hi0 : (i 0).val < 1600000 := (i 0).isLt
  have hi1 : (i 1).val < 5 := (i 1).isLt
  have hN : (i 0).val / 8000 < cfg2.N := Nat.lt_of_lt_of_eq (by omega) N_2.symm
  refine ⟨⟨(i 0).val / 8000, hN⟩, flush2_9 _, ?_⟩
  rw [mem_blk]
  obtain ⟨e0, e1, -⟩ := idx_facts ⟨(i 0).val / 8000, hN⟩
  have e0' : win2_9.index ⟨(i 0).val / 8000, hN⟩ (0 : Fin 2) = (i 0).val / 8000 := e0
  intro a
  match a with
  | ⟨0, _⟩ =>
    show win2_9.index ⟨(i 0).val / 8000, hN⟩ (0 : Fin 2) * 8000 ≤ (i 0).val ∧ (i 0).val < win2_9.index ⟨(i 0).val / 8000, hN⟩ (0 : Fin 2) * 8000 + 8000
    omega
  | ⟨1, _⟩ =>
    show win2_9.index ⟨(i 0).val / 8000, hN⟩ (1 : Fin 2) * 5 ≤ (i 1).val ∧ (i 1).val < win2_9.index ⟨(i 0).val / 8000, hN⟩ (1 : Fin 2) * 5 + 5
    omega

end AtEntry

/-! ## The array after the region

Every point writes back its block of the perceptron of the region-entry arrays, and the blocks cover the array. -/

theorem final2 (V : (c : Dev nD) → (b : Ref sig .tc) → Buf (Elt Ideal) ((c : Thread nD τ).loc b)) (c : Dev nD) :
    (dat2 V c).arrAt 9 cfg2.N = Cert.Graph.mlp3 (V c main_v69) (V c main_v76) (V c main_v77) (V c main_v78) (V c main_v79)
      (V c main_v80) (V c main_v81) (V c main_arg9) (V c main_v82) :=
  (dat2 V c).arrAt_eq_of_cover 9 _ (fun t _ => flushed_eq V c t) cover

end Cert.KernelIdeal.Region2

end
-- ==== Proof.DotBridge.lean ====
/-
  The two host matrix products of the node layers, `x * W1` and `h * W2`, are the plain sums over the inner index:
  at row `p` and column `q` the host product is the sum over the one contracted axis of
  `lhs[p, k] * rhs[k, q]`.  For each product: the four coordinates of the operand indices (row / column of the
  left and right operand) are identified with the output's row, the contraction index, the contraction index and
  the output's column; the sum over the one-axis contraction shape is re-indexed over `Fin 32` (resp. `Fin 64`).
-/
import proofs.«169596_j25220047962748_1_alg».proof.Proof.Spec
import proofs.«169596_j25220047962748_1_alg».proof.Proof.Sums
import Idealize.ShloMosaic.Lib.ValueIdx
import Idealize.ShloMosaic.PureOps.Ideal.Laws

noncomputable section

namespace Cert.Graph

open Idealize.ShloMosaic Idealize.ShloMosaic.ValueIdx Cert.ReferenceIdeal

variable [Cert.ReferenceIdeal.Facts]

/-! ## The first product, [100000, 32] times [32, 64] -/

/-- Left operand, row axis: not contracted, so it is the output's row coordinate. -/
theorem dot1_lhs_row (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch from List.not_mem_nil), dif_pos (show (0 : Fin S100000x32.rank) ∈ dot_S100000x32_S32x64_S100000x64_1_0_0_1_n_n.lhsNonContracting from List.mem_singleton.mpr rfl)]
  rfl

/-- Left operand, column axis: the one contracted axis, so it is the contraction coordinate. -/
theorem dot1_lhs_col (i : S100000x64.Idx) (q : dot_S100000x32_S32x64_S100000x64_1_0_0_1_n_n.contr.Idx) :
    (dot_S100000x32_S32x64_S100000x64_1_0_0_1_n_n.lhsIdx i q 1).val = (q ⟨0, Nat.one_pos⟩).val :=
  dot_S100000x32_S32x64_S100000x64_1_0_0_1_n_n.lhsIdx_val_of_single rfl i q

/-- Right operand, row axis: the one contracted axis, so it is the contraction coordinate. -/
theorem dot1_rhs_row (i : S100000x64.Idx) (q : dot_S100000x32_S32x64_S100000x64_1_0_0_1_n_n.contr.Idx) :
    (dot_S100000x32_S32x64_S100000x64_1_0_0_1_n_n.rhsIdx i q 0).val = (q ⟨0, Nat.one_pos⟩).val :=
  dot_S100000x32_S32x64_S100000x64_1_0_0_1_n_n.rhsIdx_val_of_single rfl i q

/-- Right operand, column axis: not contracted, so it is the output's column coordinate. -/
theorem dot1_rhs_col (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch from List.not_mem_nil), dif_pos (show (1 : Fin S32x64.rank) ∈ dot_S100000x32_S32x64_S100000x64_1_0_0_1_n_n.rhsNonContracting from List.mem_singleton.mpr rfl)]
  rfl

theorem lin1_eq_mm32 (x : FVec Ideal S100000x32 .f32) (w : FVec Ideal S32x64 .f32) : lin1 x w = mm32 x w := by
  funext i
  unfold lin1 mm32
  simp only [Host.dotGeneral]
  -- the host product at an index is the plain sum over the contraction index; that index has one axis of extent 32
  rw [Ideal.dotGeneral_apply, ← Equiv.sum_comp (contrEquiv1 dot_S100000x32_S32x64_S100000x64_1_0_0_1_n_n 32 rfl rfl).symm]
  refine Finset.sum_congr rfl fun k _ => ?_
  have hk := contrEquiv1_symm_val dot_S100000x32_S32x64_S100000x64_1_0_0_1_n_n 32 rfl rfl k
  -- the operands are read at (row of i, k) and (k, column of i), axis by axis
  have el : dot_S100000x32_S32x64_S100000x64_1_0_0_1_n_n.lhsIdx i ((contrEquiv1 dot_S100000x32_S32x64_S100000x64_1_0_0_1_n_n 32 rfl rfl).symm k) = ix2 (i 0) k := funext fun a => Fin.ext (by
    match a with
    | ⟨0, _⟩ => exact dot1_lhs_row _ _
    | ⟨1, _⟩ => exact (dot1_lhs_col _ _).trans hk)
  have er : dot_S100000x32_S32x64_S100000x64_1_0_0_1_n_n.rhsIdx i ((contrEquiv1 dot_S100000x32_S32x64_S100000x64_1_0_0_1_n_n 32 rfl rfl).symm k) = ix2 k (i 1) := funext fun a => Fin.ext (by
    match a with
    | ⟨0, _⟩ => exact (dot1_rhs_row _ _).trans hk
    | ⟨1, _⟩ => exact dot1_rhs_col _ _)
  rw [el, er]
  rfl

/-! ## The second product, [100000, 64] times [64, 64] -/

/-- Left operand, row axis: not contracted, so it is the output's row coordinate. -/
theorem dot2_lhs_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil), dif_pos (show (0 : Fin S100000x64.rank) ∈ dot_S100000x64_S64x64_S100000x64_1_0_0_1_n_n.lhsNonContracting from List.mem_singleton.mpr rfl)]
  rfl

/-- Left operand, column axis: the one contracted axis, so it is the contraction coordinate. -/
theorem dot2_lhs_col (i : S100000x64.Idx) (q : dot_S100000x64_S64x64_S100000x64_1_0_0_1_n_n.contr.Idx) :
    (dot_S100000x64_S64x64_S100000x64_1_0_0_1_n_n.lhsIdx i q 1).val = (q ⟨0, Nat.one_pos⟩).val :=
  dot_S100000x64_S64x64_S100000x64_1_0_0_1_n_n.lhsIdx_val_of_single rfl i q

/-- Right operand, row axis: the one contracted axis, so it is the contraction coordinate. -/
theorem dot2_rhs_row (i : S100000x64.Idx) (q : dot_S100000x64_S64x64_S100000x64_1_0_0_1_n_n.contr.Idx) :
    (dot_S100000x64_S64x64_S100000x64_1_0_0_1_n_n.rhsIdx i q 0).val = (q ⟨0, Nat.one_pos⟩).val :=
  dot_S100000x64_S64x64_S100000x64_1_0_0_1_n_n.rhsIdx_val_of_single rfl i q

/-- Right operand, column axis: not contracted, so it is the output's column coordinate. -/
theorem dot2_rhs_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil), dif_pos (show (1 : Fin S64x64.rank) ∈ dot_S100000x64_S64x64_S100000x64_1_0_0_1_n_n.rhsNonContracting from List.mem_singleton.mpr rfl)]
  rfl

theorem lin2_eq_mm64 (h : FVec Ideal S100000x64 .f32) (w : FVec Ideal S64x64 .f32) : lin2 h w = mm64 h w := by
  funext i
  unfold lin2 mm64
  simp only [Host.dotGeneral]
  -- the host product at an index is the plain sum over the contraction index; that index has one axis of extent 64
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  -- the operands are read at (row of i, k) and (k, column of i), axis by axis
  have el : dot_S100000x64_S64x64_S100000x64_1_0_0_1_n_n.lhsIdx i ((contrEquiv1 dot_S100000x64_S64x64_S100000x64_1_0_0_1_n_n 64 rfl rfl).symm k) = ix2 (i 0) k := funext fun a => Fin.ext (by
    match a with
    | ⟨0, _⟩ => exact dot2_lhs_row _ _
    | ⟨1, _⟩ => exact (dot2_lhs_col _ _).trans hk)
  have er : dot_S100000x64_S64x64_S100000x64_1_0_0_1_n_n.rhsIdx i ((contrEquiv1 dot_S100000x64_S64x64_S100000x64_1_0_0_1_n_n 64 rfl rfl).symm k) = ix2 k (i 1) := funext fun a => Fin.ext (by
    match a with
    | ⟨0, _⟩ => exact (dot2_rhs_row _ _).trans hk
    | ⟨1, _⟩ => exact dot2_rhs_col _ _)
  rw [el, er]
  rfl

end Cert.Graph

end
-- ==== Proof.MlpBridge.lean ====
import proofs.«169596_j25220047962748_1_alg».proof.Proof.Spec
import proofs.«169596_j25220047962748_1_alg».proof.Proof.Sums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Graph

open Idealize.ShloMosaic Idealize.ShloMosaic.ValueIdx Cert.ReferenceIdeal

variable [Cert.ReferenceIdeal.Facts]
open Cert.ReferenceIdeal.Facts₀ Cert.ReferenceIdeal.Facts

/-! ## The reference's two products at an index

At the extended reals the host's product with one contracted axis is, at row `e` and column `j`, the sum over the
inner index `k` of `a[e, k] * w[k, j]`. The four lemmas before each say which coordinates of the two operands the
product reads at output index `i` and contraction index `q`. -/

theorem dotA_lhs_0 (i : S1600000x64.Idx) (q : dot_S1600000x144_S144x64_S1600000x64_1_0_0_1_n_n.contr.Idx) :
    (dot_S1600000x144_S144x64_S1600000x64_1_0_0_1_n_n.lhsIdx i q 0).val = (i 0).val := by
  unfold DotDims.lhsIdx
  rw [dif_neg (show ¬(0 : Fin S1600000x144.rank) ∈ dot_S1600000x144_S144x64_S1600000x64_1_0_0_1_n_n.lhsBatch from List.not_mem_nil), dif_pos (show (0 : Fin S1600000x144.rank) ∈ dot_S1600000x144_S144x64_S1600000x64_1_0_0_1_n_n.lhsNonContracting from List.mem_singleton.mpr rfl)]
  rfl
theorem dotA_lhs_1 (i : S1600000x64.Idx) (q : dot_S1600000x144_S144x64_S1600000x64_1_0_0_1_n_n.contr.Idx) :
    (dot_S1600000x144_S144x64_S1600000x64_1_0_0_1_n_n.lhsIdx i q 1).val = (q ⟨0, Nat.one_pos⟩).val :=
  dot_S1600000x144_S144x64_S1600000x64_1_0_0_1_n_n.lhsIdx_val_of_single rfl i q
theorem dotA_rhs_0 (i : S1600000x64.Idx) (q : dot_S1600000x144_S144x64_S1600000x64_1_0_0_1_n_n.contr.Idx) :
    (dot_S1600000x144_S144x64_S1600000x64_1_0_0_1_n_n.rhsIdx i q 0).val = (q ⟨0, Nat.one_pos⟩).val :=
  dot_S1600000x144_S144x64_S1600000x64_1_0_0_1_n_n.rhsIdx_val_of_single rfl i q
theorem dotA_rhs_1 (i : S1600000x64.Idx) (q : dot_S1600000x144_S144x64_S1600000x64_1_0_0_1_n_n.contr.Idx) :
    (dot_S1600000x144_S144x64_S1600000x64_1_0_0_1_n_n.rhsIdx i q 1).val = (i 1).val := by
  unfold DotDims.rhsIdx
  rw [dif_neg (show ¬(1 : Fin S144x64.rank) ∈ dot_S1600000x144_S144x64_S1600000x64_1_0_0_1_n_n.rhsBatch from List.not_mem_nil), dif_pos (show (1 : Fin S144x64.rank) ∈ dot_S1600000x144_S144x64_S1600000x64_1_0_0_1_n_n.rhsNonContracting from List.mem_singleton.mpr rfl)]
  rfl

/-- The [1600000, 144] x [144, 64] product at `(e, j)`. -/
theorem dotA_apply (a : FVec Ideal S1600000x144 .f32) (w : FVec Ideal S144x64 .f32) (e : Fin 1600000) (j : Fin 64) :
    Host.dotGeneral dot_S1600000x144_S144x64_S1600000x64_1_0_0_1_n_n none a w (ix2 e j) = ∑ k : Fin 144, a (ix2 e k) * w (ix2 k j) := by
  simp only [Host.dotGeneral]
  rw [Ideal.dotGeneral_apply, ← Equiv.sum_comp (ValueIdx.contrEquiv1 dot_S1600000x144_S144x64_S1600000x64_1_0_0_1_n_n 144 rfl rfl).symm]
  refine Finset.sum_congr rfl fun k _ => ?_
  have hk := ValueIdx.contrEquiv1_symm_val dot_S1600000x144_S144x64_S1600000x64_1_0_0_1_n_n 144 rfl rfl k
  have el : dot_S1600000x144_S144x64_S1600000x64_1_0_0_1_n_n.lhsIdx (ix2 e j) ((ValueIdx.contrEquiv1 dot_S1600000x144_S144x64_S1600000x64_1_0_0_1_n_n 144 rfl rfl).symm k) = ix2 e k := funext fun a => Fin.ext (by
    match a with
    | ⟨0, _⟩ => exact dotA_lhs_0 _ _
    | ⟨1, _⟩ => exact (dotA_lhs_1 _ _).trans hk)
  have er : dot_S1600000x144_S144x64_S1600000x64_1_0_0_1_n_n.rhsIdx (ix2 e j) ((ValueIdx.contrEquiv1 dot_S1600000x144_S144x64_S1600000x64_1_0_0_1_n_n 144 rfl rfl).symm k) = ix2 k j := funext fun a => Fin.ext (by
    match a with
    | ⟨0, _⟩ => exact (dotA_rhs_0 _ _).trans hk
    | ⟨1, _⟩ => exact dotA_rhs_1 _ _)
  rw [el, er]

theorem dotB_lhs_0 (i : S1600000x5.Idx) (q : dot_S1600000x64_S64x5_S1600000x5_1_0_0_1_n_n.contr.Idx) :
    (dot_S1600000x64_S64x5_S1600000x5_1_0_0_1_n_n.lhsIdx i q 0).val = (i 0).val := by
  unfold DotDims.lhsIdx
  rw [dif_neg (show ¬(0 : Fin S1600000x64.rank) ∈ dot_S1600000x64_S64x5_S1600000x5_1_0_0_1_n_n.lhsBatch from List.not_mem_nil), dif_pos (show (0 : Fin S1600000x64.rank) ∈ dot_S1600000x64_S64x5_S1600000x5_1_0_0_1_n_n.lhsNonContracting from List.mem_singleton.mpr rfl)]
  rfl
theorem dotB_lhs_1 (i : S1600000x5.Idx) (q : dot_S1600000x64_S64x5_S1600000x5_1_0_0_1_n_n.contr.Idx) :
    (dot_S1600000x64_S64x5_S1600000x5_1_0_0_1_n_n.lhsIdx i q 1).val = (q ⟨0, Nat.one_pos⟩).val :=
  dot_S1600000x64_S64x5_S1600000x5_1_0_0_1_n_n.lhsIdx_val_of_single rfl i q
theorem dotB_rhs_0 (i : S1600000x5.Idx) (q : dot_S1600000x64_S64x5_S1600000x5_1_0_0_1_n_n.contr.Idx) :
    (dot_S1600000x64_S64x5_S1600000x5_1_0_0_1_n_n.rhsIdx i q 0).val = (q ⟨0, Nat.one_pos⟩).val :=
  dot_S1600000x64_S64x5_S1600000x5_1_0_0_1_n_n.rhsIdx_val_of_single rfl i q
theorem dotB_rhs_1 (i : S1600000x5.Idx) (q : dot_S1600000x64_S64x5_S1600000x5_1_0_0_1_n_n.contr.Idx) :
    (dot_S1600000x64_S64x5_S1600000x5_1_0_0_1_n_n.rhsIdx i q 1).val = (i 1).val := by
  unfold DotDims.rhsIdx
  rw [dif_neg (show ¬(1 : Fin S64x5.rank) ∈ dot_S1600000x64_S64x5_S1600000x5_1_0_0_1_n_n.rhsBatch from List.not_mem_nil), dif_pos (show (1 : Fin S64x5.rank) ∈ dot_S1600000x64_S64x5_S1600000x5_1_0_0_1_n_n.rhsNonContracting from List.mem_singleton.mpr rfl)]
  rfl

/-- The [1600000, 64] x [64, 5] product at `(e, q)`. -/
theorem dotB_apply (a : FVec Ideal S1600000x64 .f32) (w : FVec Ideal S64x5 .f32) (e : Fin 1600000) (q : Fin 5) :
    Host.dotGeneral dot_S1600000x64_S64x5_S1600000x5_1_0_0_1_n_n none a w (ix2 e q) = ∑ k : Fin 64, a (ix2 e k) * w (ix2 k q) := by
  simp only [Host.dotGeneral]
  rw [Ideal.dotGeneral_apply, ← Equiv.sum_comp (ValueIdx.contrEquiv1 dot_S1600000x64_S64x5_S1600000x5_1_0_0_1_n_n 64 rfl rfl).symm]
  refine Finset.sum_congr rfl fun k _ => ?_
  have hk := ValueIdx.contrEquiv1_symm_val dot_S1600000x64_S64x5_S1600000x5_1_0_0_1_n_n 64 rfl rfl k
  have el : dot_S1600000x64_S64x5_S1600000x5_1_0_0_1_n_n.lhsIdx (ix2 e q) ((ValueIdx.contrEquiv1 dot_S1600000x64_S64x5_S1600000x5_1_0_0_1_n_n 64 rfl rfl).symm k) = ix2 e k := funext fun a => Fin.ext (by
    match a with
    | ⟨0, _⟩ => exact dotB_lhs_0 _ _
    | ⟨1, _⟩ => exact (dotB_lhs_1 _ _).trans hk)
  have er : dot_S1600000x64_S64x5_S1600000x5_1_0_0_1_n_n.rhsIdx (ix2 e q) ((ValueIdx.contrEquiv1 dot_S1600000x64_S64x5_S1600000x5_1_0_0_1_n_n 64 rfl rfl).symm k) = ix2 k q := funext fun a => Fin.ext (by
    match a with
    | ⟨0, _⟩ => exact (dotB_rhs_0 _ _).trans hk
    | ⟨1, _⟩ => exact dotB_rhs_1 _ _)
  rw [el, er]

/-! ## A sum over 144 = 64 + 64 + 16 inner indices in its three runs -/

/-- A sum over `Fin (a + b + c)` is the sum over the first `a` indices, plus the sum over the next `b`, plus the sum
    over the last `c` (commutative monoid: only the grouping of the terms changes). -/
theorem sum_three_runs {M : Type*} [AddCommMonoid M] (a b c : Nat) (f : Fin (a + b + c) → M) :
    ∑ k : Fin (a + b + c), f k
      = (∑ k : Fin a, f ⟨k.val, by have := k.isLt; omega⟩) + (∑ k : Fin b, f ⟨a + k.val, by have := k.isLt; omega⟩)
        + (∑ k : Fin c, f ⟨a + b + k.val, by have := k.isLt; omega⟩) := by
  rw [Fin.sum_univ_add, Fin.sum_univ_add]
  rfl

/-- The split at the literal extents of the perceptron's row. -/
theorem sum_144 {M : Type*} [AddCommMonoid M] (f : Fin 144 → M) :
    ∑ k : Fin 144, f k
      = (∑ k : Fin 64, f ⟨k.val, by have := k.isLt; omega⟩) + (∑ k : Fin 64, f ⟨64 + k.val, by have := k.isLt; omega⟩)
        + (∑ k : Fin 16, f ⟨128 + k.val, by have := k.isLt; omega⟩) :=
  sum_three_runs 64 64 16 f

/-! ## The concatenated row `[hs | hd | ea]` read at an index -/

section Row
variable (hs hd : FVec Ideal S1600000x64 .f32) (ea : FVec Ideal S1600000x16 .f32)

/-- Columns 0..63 of the row are the first piece. -/
theorem row_apply_0 (e : Fin 1600000) (k : Fin 64) :
    concatenate S1600000x144 1 [⟨S1600000x64, hs⟩, ⟨S1600000x64, hd⟩, ⟨S1600000x16, ea⟩]
      concatenates_S1600000x64_S1600000x64_S1600000x16_S1600000x144_d1 (ix2 e (⟨k.val, by have := k.isLt; omega⟩ : Fin 144)) = hs (ix2 e k) :=
  concatenate_apply_piece (1 : Fin S1600000x144.rank) [⟨S1600000x64, hs⟩, ⟨S1600000x64, hd⟩, ⟨S1600000x16, ea⟩]
    concatenates_S1600000x64_S1600000x64_S1600000x16_S1600000x144_d1 _ 0 (by simp) S1600000x64 hs rfl rfl 0 rfl (ix2 e k)
    (fun b hb => by
      match b with
      | ⟨0, _⟩ => rfl
      | ⟨1, _⟩ => exact absurd rfl hb)
    (Nat.zero_add _)

/-- Columns 64..127 are the second piece. -/
theorem row_apply_1 (e : Fin 1600000) (k : Fin 64) :
    concatenate S1600000x144 1 [⟨S1600000x64, hs⟩, ⟨S1600000x64, hd⟩, ⟨S1600000x16, ea⟩]
      concatenates_S1600000x64_S1600000x64_S1600000x16_S1600000x144_d1 (ix2 e (⟨64 + k.val, by have := k.isLt; omega⟩ : Fin 144)) = hd (ix2 e k) :=
  concatenate_apply_piece (1 : Fin S1600000x144.rank) [⟨S1600000x64, hs⟩, ⟨S1600000x64, hd⟩, ⟨S1600000x16, ea⟩]
    concatenates_S1600000x64_S1600000x64_S1600000x16_S1600000x144_d1 _ 1 (by simp) S1600000x64 hd rfl rfl 64 rfl (ix2 e k)
    (fun b hb => by
      match b with
      | ⟨0, _⟩ => rfl
      | ⟨1, _⟩ => exact absurd rfl hb)
    rfl

/-- Columns 128..143 are the third piece. -/
theorem row_apply_2 (e : Fin 1600000) (k : Fin 16) :
    concatenate S1600000x144 1 [⟨S1600000x64, hs⟩, ⟨S1600000x64, hd⟩, ⟨S1600000x16, ea⟩]
      concatenates_S1600000x64_S1600000x64_S1600000x16_S1600000x144_d1 (ix2 e (⟨128 + k.val, by have := k.isLt; omega⟩ : Fin 144)) = ea (ix2 e k) :=
  concatenate_apply_piece (1 : Fin S1600000x144.rank) [⟨S1600000x64, hs⟩, ⟨S1600000x64, hd⟩, ⟨S1600000x16, ea⟩]
    concatenates_S1600000x64_S1600000x64_S1600000x16_S1600000x144_d1 _ 2 (by simp) S1600000x16 ea rfl rfl 128 rfl (ix2 e k)
    (fun b hb => by
      match b with
      | ⟨0, _⟩ => rfl
      | ⟨1, _⟩ => exact absurd rfl hb)
    rfl

end Row

/-! ## The bias rows and the zero the reference broadcasts, read at an index -/

/-- The first bias broadcast through [1, 64] to every edge reads the bias at the hidden unit. -/
theorem bias1_apply (bc1 : FVec Ideal S64 .f32) (e : Fin 1600000) (j : Fin 64) :
    broadcastInDim S1600000x64 ![0, 1] bcast_S1x64_S1600000x64_0_1 (broadcastInDim S1x64 ![1] bcast_S64_S1x64_1 bc1) (ix2 e j)
      = bc1 (ix1 j) :=
  (broadcastInDim_apply (![0, 1] : Fin 2 → Fin S1600000x64.rank) bcast_S1x64_S1600000x64_0_1 _ (ix2 e j) (ix2 (0 : Fin 1) j) (fun a => by
    match a with
    | ⟨0, _⟩ => rfl
    | ⟨1, _⟩ => rfl)).trans
  (broadcastInDim_apply (![1] : Fin 1 → Fin S1x64.rank) bcast_S64_S1x64_1 bc1 (ix2 (0 : Fin 1) j) (ix1 j) (fun a => by
    match a with
    | ⟨0, _⟩ => rfl))

/-- The second bias broadcast through [1, 5] to every edge reads the bias at the score. -/
theorem bias2_apply (bc2 : FVec Ideal S5 .f32) (e : Fin 1600000) (q : Fin 5) :
    broadcastInDim S1600000x5 ![0, 1] bcast_S1x5_S1600000x5_0_1 (broadcastInDim S1x5 ![1] bcast_S5_S1x5_1 bc2) (ix2 e q)
      = bc2 (ix1 q) :=
  (broadcastInDim_apply (![0, 1] : Fin 2 → Fin S1600000x5.rank) bcast_S1x5_S1600000x5_0_1 _ (ix2 e q) (ix2 (0 : Fin 1) q) (fun a => by
    match a with
    | ⟨0, _⟩ => rfl
    | ⟨1, _⟩ => rfl)).trans
  (broadcastInDim_apply (![1] : Fin 1 → Fin S1x5.rank) bcast_S5_S1x5_1 bc2 (ix2 (0 : Fin 1) q) (ix1 q) (fun a => by
    match a with
    | ⟨0, _⟩ => rfl))

/-- The broadcast zero constant is the extended reals' zero everywhere. -/
theorem zero_apply (e : Fin 1600000) (j : Fin 64) :
    broadcastInDim S1600000x64 ![] bcast_S_S1600000x64 (constant (F := Ideal) S_ .f32 0x00000000#32) (ix2 e j) = (0 : EReal) :=
  (broadcastInDim_apply (![] : Fin 0 → Fin S1600000x64.rank) bcast_S_S1600000x64 _ (ix2 e j) ix0 (fun a => a.elim0)).trans
    ((constant_apply _ _).trans Ideal.ofBits_zero_f32)

/-! ## The hidden layer: one product over the 144-wide row against three products over its pieces -/

section Hidden
variable (hs hd : FVec Ideal S1600000x64 .f32) (ea : FVec Ideal S1600000x16 .f32) (wc1 : FVec Ideal S144x64 .f32)
  (bc1 : FVec Ideal S64 .f32)
  (hsl0 : S144x64.Slices ![0, 0] ⟨2, ![64, 64]⟩) (hsl1 : S144x64.Slices ![64, 0] ⟨2, ![64, 64]⟩)
  (hsl2 : S144x64.Slices ![128, 0] ⟨2, ![16, 64]⟩) (hc1 : S64.ShapeCasts ⟨2, ![1, 64]⟩)

/-- The reference's hidden value before clipping, at edge `e` and hidden unit `j`, is the kernel's: the sum over the 144
    inner indices is its three runs, the row read piece by piece, the weight matrix read block by block, and the bias
    read through the row it is cast to. -/
theorem hidden_apply (e : Fin 1600000) (j : Fin 64) :
    addf (Host.dotGeneral dot_S1600000x144_S144x64_S1600000x64_1_0_0_1_n_n none
        (concatenate S1600000x144 1 [⟨S1600000x64, hs⟩, ⟨S1600000x64, hd⟩, ⟨S1600000x16, ea⟩]
          concatenates_S1600000x64_S1600000x64_S1600000x16_S1600000x144_d1) wc1)
      (broadcastInDim S1600000x64 ![0, 1] bcast_S1x64_S1600000x64_0_1 (broadcastInDim S1x64 ![1] bcast_S64_S1x64_1 bc1)) (ix2 e j)
      = hidden3 hs hd ea (extractStridedSlice ⟨2, ![64, 64]⟩ ![0, 0] wc1 hsl0) (extractStridedSlice ⟨2, ![64, 64]⟩ ![64, 0] wc1 hsl1)
          (extractStridedSlice ⟨2, ![16, 64]⟩ ![128, 0] wc1 hsl2) (shapeCast ⟨2, ![1, 64]⟩ bc1 hc1) e j := by
  unfold hidden3
  rw [addf_apply, dotA_apply, bias1_apply, sum_144, shapeCast_a_1a_apply]
  congr 1
  congr 1
  · congr 1
    · refine Finset.sum_congr rfl fun k _ => ?_
      rw [row_apply_0, slice2_axis0_apply 0 wc1 hsl0 k j ⟨k.val, by have := k.isLt; omega⟩ (Nat.zero_add _).symm]
    · refine Finset.sum_congr rfl fun k _ => ?_
      rw [row_apply_1, slice2_axis0_apply 64 wc1 hsl1 k j ⟨64 + k.val, by have := k.isLt; omega⟩ rfl]
  · refine Finset.sum_congr rfl fun k _ => ?_
    rw [row_apply_2, slice2_axis0_apply 128 wc1 hsl2 k j ⟨128 + k.val, by have := k.isLt; omega⟩ rfl]

end Hidden

/-- The kernel's perceptron read at edge `e` and score `q`. -/
theorem mlp3_apply (hs hd : (⟨2, ![1600000, 64]⟩ : Shape).Idx → EReal) (ea : (⟨2, ![1600000, 16]⟩ : Shape).Idx → EReal)
    (ws wd : (⟨2, ![64, 64]⟩ : Shape).Idx → EReal) (we : (⟨2, ![16, 64]⟩ : Shape).Idx → EReal)
    (b1 : (⟨2, ![1, 64]⟩ : Shape).Idx → EReal) (w2 : (⟨2, ![64, 5]⟩ : Shape).Idx → EReal)
    (b2 : (⟨2, ![1, 5]⟩ : Shape).Idx → EReal) (e : Fin 1600000) (q : Fin 5) :
    mlp3 hs hd ea ws wd we b1 w2 b2 (ix2 e q)
      = (∑ j : Fin 64, max (hidden3 hs hd ea ws wd we b1 e j) 0 * w2 (ix2 j q)) + b2 (ix2 (0 : Fin 1) q) := rfl

/-- The perceptron on a row given in three pieces is the perceptron on the concatenated row: index by index the hidden
    values agree (the inner sum over 144 indices in its three runs), so their clips at zero agree, and the outer sum over
    the 64 hidden units and the second bias are the same on both sides. -/
theorem mlp3_eq_edgeMlp (hs hd : FVec Ideal S1600000x64 .f32) (ea : FVec Ideal S1600000x16 .f32) (wc1 : FVec Ideal S144x64 .f32)
    (bc1 : FVec Ideal S64 .f32) (wc2 : FVec Ideal S64x5 .f32) (bc2 : FVec Ideal S5 .f32)
    (hsl0 : S144x64.Slices ![0, 0] ⟨2, ![64, 64]⟩) (hsl1 : S144x64.Slices ![64, 0] ⟨2, ![64, 64]⟩)
    (hsl2 : S144x64.Slices ![128, 0] ⟨2, ![16, 64]⟩)
    (hc1 : S64.ShapeCasts ⟨2, ![1, 64]⟩) (hc2 : S5.ShapeCasts ⟨2, ![1, 5]⟩) :
    mlp3 hs hd ea (extractStridedSlice ⟨2, ![64, 64]⟩ ![0, 0] wc1 hsl0) (extractStridedSlice ⟨2, ![64, 64]⟩ ![64, 0] wc1 hsl1)
      (extractStridedSlice ⟨2, ![16, 64]⟩ ![128, 0] wc1 hsl2) (shapeCast ⟨2, ![1, 64]⟩ bc1 hc1) wc2 (shapeCast ⟨2, ![1, 5]⟩ bc2 hc2)
      = edgeMlp hs hd ea wc1 bc1 wc2 bc2 := by
  funext i
  obtain ⟨e, q, rfl⟩ : ∃ (e : Fin 1600000) (q : Fin 5), i = ix2 e q := ⟨i 0, i 1, eq_ix2 i⟩
  unfold edgeMlp
  rw [addf_apply, dotB_apply, bias2_apply, mlp3_apply, shapeCast_a_1a_apply]
  refine congrArg (fun x : EReal => x + bc2 (ix1 q)) (Finset.sum_congr rfl fun j _ => ?_)
  rw [maximumf_apply, hidden_apply hs hd ea wc1 bc1 hsl0 hsl1 hsl2 hc1, zero_apply]

end Cert.Graph

end
-- ==== Proof.ChainValue.lean ====
/-
  The kernel program's result as a value, at the ideal instance.  Each matrix region leaves its output array at a
  plain sum over the inner index (the region modules); read at the region's entry contents, the first two are the
  two layers' products and the third is the edge perceptron on the row given in three pieces.  Threaded through the
  host stretches between them, the result buffer ends at the graph network's edge scores of the eleven arguments: the
  narrowing to sixteen bits before the gathers is the identity on extended reals, and the perceptron on three pieces
  with the three row blocks of its first matrix is the perceptron on the concatenated row.
-/
import proofs.«169596_j25220047962748_1_alg».proof.Proof.ChainHost
import proofs.«169596_j25220047962748_1_alg».proof.Proof.Region0
import proofs.«169596_j25220047962748_1_alg».proof.Proof.Region1
import proofs.«169596_j25220047962748_1_alg».proof.Proof.Region2
import proofs.«169596_j25220047962748_1_alg».proof.Proof.DotBridge
import proofs.«169596_j25220047962748_1_alg».proof.Proof.MlpBridge

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The first region's output array: the first layer's product `x * W1`. -/
theorem W2_v27 (c : Dev nD) : W2 m ρ c (Proc.devRef .tc main_v27) = Cert.Graph.lin1 (F := Ideal) (m ((c : Thread nD τ).loc main_arg0)) (m ((c : Thread nD τ).loc main_arg3)) := by
  rw [Cert.Graph.lin1_eq_mm32]
  refine (W2_arr m ρ c 2).trans ((Cert.KernelIdeal.Region0.final0 (V1 m ρ) c).trans ?_)
  show Cert.Graph.mm32 (W1 m ρ c (Proc.devRef .tc main_arg0)) (W1 m ρ c (Proc.devRef .tc main_arg3)) = _
  rw [W1_arg0, W1_arg3]

/-- The second region's output array: the second layer's product of what the region finds with `W2`. -/
theorem W5_v45 (c : Dev nD) : W5 m ρ c (Proc.devRef .tc main_v45) = Cert.Graph.lin2 (F := Ideal) (W4 m ρ c (Proc.devRef .tc main_v44)) (m ((c : Thread nD τ).loc main_arg5)) := by
  rw [Cert.Graph.lin2_eq_mm64]
  refine (W5_arr m ρ c 2).trans ((Cert.KernelIdeal.Region1.final1 (V4 m ρ) c).trans ?_)
  show Cert.Graph.mm64 (W4 m ρ c (Proc.devRef .tc main_v44)) (W4 m ρ c (Proc.devRef .tc main_arg5)) = _
  rw [W4_arg5]

/-- The third region's output array: the edge perceptron of the nine arrays the region finds. -/
theorem W7_v83 (c : Dev nD) : W7 m ρ c (Proc.devRef .tc main_v83)
    = Cert.Graph.mlp3 (W6 m ρ c (Proc.devRef .tc main_v69)) (W6 m ρ c (Proc.devRef .tc main_v76)) (W6 m ρ c (Proc.devRef .tc main_v77)) (W6 m ρ c (Proc.devRef .tc main_v78))
        (W6 m ρ c (Proc.devRef .tc main_v79)) (W6 m ρ c (Proc.devRef .tc main_v80)) (W6 m ρ c (Proc.devRef .tc main_v81)) (W6 m ρ c (Proc.devRef .tc main_arg9)) (W6 m ρ c (Proc.devRef .tc main_v82)) :=
  (W7_arr m ρ c 9).trans (Cert.KernelIdeal.Region2.final2 (V6 m ρ) c)

/-- Narrowing a table to sixteen bits before gathering its rows changes nothing on extended reals. -/
theorem rows16_eq (h : FVec Ideal S100000x64 .f32) (v : IVec S1600000 32) :
    rows16 (F := Ideal) h v = Cert.Graph.rowsAt h v := rfl

/-- THE KERNEL'S VALUE: the result buffer ends at the network's edge scores of the arguments. -/
theorem kernel_value (c : Dev nD) : W7 m ρ c (Proc.devRef .tc main_v83)
    = Cert.Graph.edgeScores (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W7_v83, W6_v69, W6_v76, W6_v77, W6_v78, W6_v79, W6_v80, W6_v81, W6_arg9, W6_v82, W5_v45, W4_v44, W2_v27,
    rows16_eq, rows16_eq]
  unfold Cert.Graph.edgeScores Cert.Graph.nodeEmb
  exact Cert.Graph.mlp3_eq_edgeMlp _ _ (m ((c : Thread nD τ).loc main_arg2)) (m ((c : Thread nD τ).loc main_arg7)) (m ((c : Thread nD τ).loc main_arg8)) (m ((c : Thread nD τ).loc main_arg9)) (m ((c : Thread nD τ).loc main_arg10)) _ _ _ _ _

end Cert.KernelIdeal.Chain

end
-- ==== Proof.RefStaged.lean ====
/-
  The reference program's run, read stretch by stretch.  Its @main is a straight line of 135 host operations; run
  from any memory it terminates with every buffer at the fold of the operations' results over the launch contents.
  The line is cut into six stretches, each ending where one named quantity of the graph network is complete: the
  edges' endpoints, the same with a self loop per node, the edge weights and the first product; one propagation
  step clipped at zero; the second product with the second copy of the endpoints and weights (the program computes
  them once per propagation step, both copies the same functions of the index array); the second propagation step,
  which completes the node embedding; the embedding's rows at each edge's two endpoints; the edge perceptron on the
  joined rows.  After each stretch the buffers that later stretches read hold the network's named functions of the
  arguments (a buffer a stretch does not write keeps what it held), so the result buffer ends at every edge's five
  scores and no argument changes.
-/
import proofs.«169596_j25220047962748_1_alg».proof.Proof.Gen.ReferenceIdeal
import proofs.«169596_j25220047962748_1_alg».proof.Proof.Spec
import Idealize.ShloMosaic.Lib.StableHlo.Run
import Idealize.ShloMosaic.Lib.Pipeline.Frame

set_option maxRecDepth 16384

noncomputable section

namespace Cert.ReferenceIdeal.Staged

open Cert.ReferenceIdeal Cert.ReferenceIdeal.Gen
open Idealize.ShloMosaic Idealize.ShloMosaic.TcCoe Idealize.SL.Sem Idealize.ShloMosaic.StableHlo

variable {F : FTy → Type} [FloatOps F]

/-! ## The operations, in six stretches

@main's 135 host operations in program order (a called function's operations stand in its call's place), cut where one
named quantity of the network is complete. -/

/-- The edges' endpoints, the same with the self loops, the first product `x * W1`, and the first copy of the edge weights (through `main_v27`). -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_c (constantI S_ 32 0#32),
    unary main_c main_v13 (broadcastInDim S1700000 ![] bcast_S_S1700000 : (⟨S_, .i32⟩ : BufTy).Contents (Elt F) → (⟨S1700000, .i32⟩ : BufTy).Contents (Elt F)),
    binary main_v6 main_v13 main_v14 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v15 (broadcastInDim S1700000 ![] bcast_S_S1700000 : (⟨S_, .i32⟩ : BufTy).Contents (Elt F) → (⟨S1700000, .i32⟩ : BufTy).Contents (Elt F)),
    binary main_v6 main_v15 main_v16 (addi : (⟨S1700000, .i32⟩ : BufTy).Contents (Elt F) → (⟨S1700000, .i32⟩ : BufTy).Contents (Elt F) → (⟨S1700000, .i32⟩ : BufTy).Contents (Elt F)),
    ternary main_v14 main_v16 main_v6 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v17 main_v18 (broadcastInDim S1700000x1 ![0] bcast_S1700000_S1700000x1_0 : (⟨S1700000, .i32⟩ : BufTy).Contents (Elt F) → (⟨S1700000x1, .i32⟩ : BufTy).Contents (Elt F)),
    binary main_v12 main_v18 main_v19 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v20 (broadcastInDim S1700000 ![] bcast_S_S1700000 : (⟨S_, .i32⟩ : BufTy).Contents (Elt F) → (⟨S1700000, .i32⟩ : BufTy).Contents (Elt F)),
    binary main_v7 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v22 (broadcastInDim S1700000 ![] bcast_S_S1700000 : (⟨S_, .i32⟩ : BufTy).Contents (Elt F) → (⟨S1700000, .i32⟩ : BufTy).Contents (Elt F)),
    binary main_v7 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v7 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v12 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v19 main_v26 main_v27 (mulf : (⟨S1700000, .f32⟩ : BufTy).Contents (Elt F) → (⟨S1700000, .f32⟩ : BufTy).Contents (Elt F) → (⟨S1700000, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The first propagation step and the clip at zero (through `main_v44`). -/
abbrev opsB : List (HloOp τ sig (Elt F)) :=
  [ nullary main_c_4 (constantI S_ 32 0#32),
    unary main_c_4 main_v28 (broadcastInDim S1700000 ![] bcast_S_S1700000 : (⟨S_, .i32⟩ : BufTy).Contents (Elt F) → (⟨S1700000, .i32⟩ : BufTy).Contents (Elt F)),
    binary main_v6 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v30 (broadcastInDim S1700000 ![] bcast_S_S1700000 : (⟨S_, .i32⟩ : BufTy).Contents (Elt F) → (⟨S1700000, .i32⟩ : BufTy).Contents (Elt F)),
    binary main_v6 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v6 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v4 main_v33 main_v34 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v27 main_v35 (broadcastInDim S1700000x1 ![0] bcast_S1700000_S1700000x1_0 : (⟨S1700000, .f32⟩ : BufTy).Contents (Elt F) → (⟨S1700000x1, .f32⟩ : BufTy).Contents (Elt F)),
    unary main_v35 main_v36 (broadcastInDim S1700000x64 ![0, 1] bcast_S1700000x1_S1700000x64_0_1 : (⟨S1700000x1, .f32⟩ : BufTy).Contents (Elt F) → (⟨S1700000x64, .f32⟩ : BufTy).Contents (Elt F)),
    binary main_v34 main_v36 main_v37 (mulf : (⟨S1700000x64, .f32⟩ : BufTy).Contents (Elt F) → (⟨S1700000x64, .f32⟩ : BufTy).Contents (Elt F) → (⟨S1700000x64, .f32⟩ : BufTy).Contents (Elt F)),
    nullary main_cst_6 (constant S_ .f32 0x00000000#32),
    unary main_cst_6 main_v38 (broadcastInDim S100000x64 ![] bcast_S_S100000x64 : (⟨S_, .f32⟩ : BufTy).Contents (Elt F) → (⟨S100000x64, .f32⟩ : BufTy).Contents (Elt F)),
    unary main_v7 main_v39 (broadcastInDim S1700000x1 ![0] bcast_S1700000_S1700000x1_0 : (⟨S1700000, .i32⟩ : BufTy).Contents (Elt F) → (⟨S1700000x1, .i32⟩ : BufTy).Contents (Elt F)),
    ternary main_v38 main_v39 main_v37 main_v40 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v43) (TRef.of (T := ⟨S100000x64, .f32⟩) main_call0_v0) (TRef.of (T := ⟨S100000x64, .f32⟩) main_v44) maximumf ]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- The second product, and the second copy of the endpoints with self loops and of the edge weights (through `main_v68`). -/
abbrev opsC : List (HloOp τ sig (Elt F)) :=
  [ binary main_v44 main_arg5 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_v46 (iotaInDim S100000 32 0),
    binary main_v1 main_v46 main_v47 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v46 main_v48 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_7 (constant S_ .f32 0x3F800000#32),
    unary main_cst_7 main_v49 (broadcastInDim S1700000 ![] bcast_S_S1700000 : (⟨S_, .f32⟩ : BufTy).Contents (Elt F) → (⟨S1700000, .f32⟩ : BufTy).Contents (Elt F)),
    nullary main_cst_8 (constant S_ .f32 0x00000000#32),
    unary main_cst_8 main_v50 (broadcastInDim S100000 ![] bcast_S_S100000 : (⟨S_, .f32⟩ : BufTy).Contents (Elt F) → (⟨S100000, .f32⟩ : BufTy).Contents (Elt F)),
    unary main_v48 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v52 main_v53 (Host.rsqrt : (⟨S100000, .f32⟩ : BufTy).Contents (Elt F) → (⟨S100000, .f32⟩ : BufTy).Contents (Elt F)),
    nullary main_c_9 (constantI S_ 32 0#32),
    unary main_c_9 main_v54 (broadcastInDim S1700000 ![] bcast_S_S1700000 : (⟨S_, .i32⟩ : BufTy).Contents (Elt F) → (⟨S1700000, .i32⟩ : BufTy).Contents (Elt F)),
    binary main_v47 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v56 (broadcastInDim S1700000 ![] bcast_S_S1700000 : (⟨S_, .i32⟩ : BufTy).Contents (Elt F) → (⟨S1700000, .i32⟩ : BufTy).Contents (Elt F)),
    binary main_v47 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v47 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v61 (broadcastInDim S1700000 ![] bcast_S_S1700000 : (⟨S_, .i32⟩ : BufTy).Contents (Elt F) → (⟨S1700000, .i32⟩ : BufTy).Contents (Elt F)),
    binary main_v48 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v63 (broadcastInDim S1700000 ![] bcast_S_S1700000 : (⟨S_, .i32⟩ : BufTy).Contents (Elt F) → (⟨S1700000, .i32⟩ : BufTy).Contents (Elt F)),
    binary main_v48 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v48 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v53 main_v66 main_v67 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v60 main_v67 main_v68 (mulf : (⟨S1700000, .f32⟩ : BufTy).Contents (Elt F) → (⟨S1700000, .f32⟩ : BufTy).Contents (Elt F) → (⟨S1700000, .f32⟩ : BufTy).Contents (Elt F)) ]

theorem opsC_sub : (opsC : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The second propagation step (through `main_v84`). -/
abbrev opsD : List (HloOp τ sig (Elt F)) :=
  [ nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v47 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v47 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v47 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v45 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v68 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v48 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The node embedding gathered at each edge's two endpoints (through `main_v98`). -/
abbrev opsE : List (HloOp τ sig (Elt F)) :=
  [ nullary main_c_16 (constantI S_ 32 0#32),
    unary main_c_16 main_v85 (broadcastInDim S1600000 ![] bcast_S_S1600000 : (⟨S_, .i32⟩ : BufTy).Contents (Elt F) → (⟨S1600000, .i32⟩ : BufTy).Contents (Elt F)),
    binary main_v1 main_v85 main_v86 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v87 (broadcastInDim S1600000 ![] bcast_S_S1600000 : (⟨S_, .i32⟩ : BufTy).Contents (Elt F) → (⟨S1600000, .i32⟩ : BufTy).Contents (Elt F)),
    binary main_v1 main_v87 main_v88 (addi : (⟨S1600000, .i32⟩ : BufTy).Contents (Elt F) → (⟨S1600000, .i32⟩ : BufTy).Contents (Elt F) → (⟨S1600000, .i32⟩ : BufTy).Contents (Elt F)),
    ternary main_v86 main_v88 main_v1 main_v89 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v89 main_v90 (broadcastInDim S1600000x1 ![0] bcast_S1600000_S1600000x1_0 : (⟨S1600000, .i32⟩ : BufTy).Contents (Elt F) → (⟨S1600000x1, .i32⟩ : BufTy).Contents (Elt F)),
    binary main_v84 main_v90 main_v91 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_18 (constantI S_ 32 0#32),
    unary main_c_18 main_v92 (broadcastInDim S1600000 ![] bcast_S_S1600000 : (⟨S_, .i32⟩ : BufTy).Contents (Elt F) → (⟨S1600000, .i32⟩ : BufTy).Contents (Elt F)),
    binary main_v3 main_v92 main_v93 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 100000#32),
    unary main_c_19 main_v94 (broadcastInDim S1600000 ![] bcast_S_S1600000 : (⟨S_, .i32⟩ : BufTy).Contents (Elt F) → (⟨S1600000, .i32⟩ : BufTy).Contents (Elt F)),
    binary main_v3 main_v94 main_v95 (addi : (⟨S1600000, .i32⟩ : BufTy).Contents (Elt F) → (⟨S1600000, .i32⟩ : BufTy).Contents (Elt F) → (⟨S1600000, .i32⟩ : BufTy).Contents (Elt F)),
    ternary main_v93 main_v95 main_v3 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v96 main_v97 (broadcastInDim S1600000x1 ![0] bcast_S1600000_S1600000x1_0 : (⟨S1600000, .i32⟩ : BufTy).Contents (Elt F) → (⟨S1600000x1, .i32⟩ : BufTy).Contents (Elt F)),
    binary main_v84 main_v97 main_v98 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The edge perceptron on the joined rows (through `main_v108`). -/
abbrev opsG : List (HloOp τ sig (Elt F)) :=
  [ nary ![main_v91, main_v98, main_arg2] main_v99 (fun u => concatenate S1600000x144 1 [⟨S1600000x64, u 0⟩, ⟨S1600000x64, u 1⟩, ⟨S1600000x16, u 2⟩] concatenates_S1600000x64_S1600000x64_S1600000x16_S1600000x144_d1),
    binary main_v99 main_arg7 main_v100 ((fun l r => Host.dotGeneral dot_S1600000x144_S144x64_S1600000x64_1_0_0_1_n_n none l r) : (⟨S1600000x144, .f32⟩ : BufTy).Contents (Elt F) → (⟨S144x64, .f32⟩ : BufTy).Contents (Elt F) → (⟨S1600000x64, .f32⟩ : BufTy).Contents (Elt F)),
    unary main_arg8 main_v101 (broadcastInDim S1x64 ![1] bcast_S64_S1x64_1 : (⟨S64, .f32⟩ : BufTy).Contents (Elt F) → (⟨S1x64, .f32⟩ : BufTy).Contents (Elt F)),
    unary main_v101 main_v102 (broadcastInDim S1600000x64 ![0, 1] bcast_S1x64_S1600000x64_0_1 : (⟨S1x64, .f32⟩ : BufTy).Contents (Elt F) → (⟨S1600000x64, .f32⟩ : BufTy).Contents (Elt F)),
    binary main_v100 main_v102 main_v103 (addf : (⟨S1600000x64, .f32⟩ : BufTy).Contents (Elt F) → (⟨S1600000x64, .f32⟩ : BufTy).Contents (Elt F) → (⟨S1600000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1600000x64, .f32⟩) main_call1_v0) (broadcastInDim S1600000x64 ![] bcast_S_S1600000x64),
    TRef.binary (TRef.of (T := ⟨S1600000x64, .f32⟩) main_v103) (TRef.of (T := ⟨S1600000x64, .f32⟩) main_call1_v0) (TRef.of (T := ⟨S1600000x64, .f32⟩) main_v104) maximumf,
    binary main_v104 main_arg9 main_v105 ((fun l r => Host.dotGeneral dot_S1600000x64_S64x5_S1600000x5_1_0_0_1_n_n none l r) : (⟨S1600000x64, .f32⟩ : BufTy).Contents (Elt F) → (⟨S64x5, .f32⟩ : BufTy).Contents (Elt F) → (⟨S1600000x5, .f32⟩ : BufTy).Contents (Elt F)),
    unary main_arg10 main_v106 (broadcastInDim S1x5 ![1] bcast_S5_S1x5_1 : (⟨S5, .f32⟩ : BufTy).Contents (Elt F) → (⟨S1x5, .f32⟩ : BufTy).Contents (Elt F)),
    unary main_v106 main_v107 (broadcastInDim S1600000x5 ![0, 1] bcast_S1x5_S1600000x5_0_1 : (⟨S1x5, .f32⟩ : BufTy).Contents (Elt F) → (⟨S1600000x5, .f32⟩ : BufTy).Contents (Elt F)),
    binary main_v105 main_v107 main_v108 (addf : (⟨S1600000x5, .f32⟩ : BufTy).Contents (Elt F) → (⟨S1600000x5, .f32⟩ : BufTy).Contents (Elt F) → (⟨S1600000x5, .f32⟩ : BufTy).Contents (Elt F)) ]

theorem opsG_sub : (opsG : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- @main's operations: the six stretches in a row. -/
abbrev ops : List (HloOp τ sig (Elt F)) := opsA ++ opsB ++ opsC ++ opsD ++ opsE ++ opsG

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of the joined line. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append opsA_sub opsB_sub) opsC_sub) opsD_sub) opsE_sub) opsG_sub

/-- The results `simp` leaves unread (the operands of a concatenation: it does not enter the list of pieces), read by
    `rw`: an operation's result at its own buffer is its function's value, at any other buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Stages

variable (m : (ℓ : Loc nD τ sig) → Buf (Elt F) ℓ)

/-- The buffers' contents at launch, and after each stretch. -/
def V0 (c : Dev nD) : Valuation τ sig (Elt F) := launchContents m c
def VA (c : Dev nD) : Valuation τ sig (Elt F) := after opsA (V0 m c)
def VB (c : Dev nD) : Valuation τ sig (Elt F) := after opsB (VA m c)
def VC (c : Dev nD) : Valuation τ sig (Elt F) := after opsC (VB m c)
def VD (c : Dev nD) : Valuation τ sig (Elt F) := after opsD (VC m c)
def VE (c : Dev nD) : Valuation τ sig (Elt F) := after opsE (VD m c)
def VG (c : Dev nD) : Valuation τ sig (Elt F) := after opsG (VE m c)

/-- The whole line's contents are the last stretch's. -/
theorem after_ops (c : Dev nD) : after ops (launchContents m c) = VG m c := by
  simp only [ops, after_append]
  rfl

/-! ## After the first stretch -/

set_option maxHeartbeats 4000000 in
/-- Each edge's source node. -/
theorem VA_v1 (c : Dev nD) : VA m c (Proc.devRef .tc main_v1) = Cert.Graph.srcIds (m ((c.tc : Thread nD τ).loc main_arg1)) := by
  show after opsA (V0 m c) (Proc.devRef .tc main_v1) = _
  after_results_simp <;> rfl

set_option maxHeartbeats 4000000 in
/-- Each edge's destination node. -/
theorem VA_v3 (c : Dev nD) : VA m c (Proc.devRef .tc main_v3) = Cert.Graph.dstIds (m ((c.tc : Thread nD τ).loc main_arg1)) := by
  show after opsA (V0 m c) (Proc.devRef .tc main_v3) = _
  after_results_simp <;> rfl

set_option maxHeartbeats 4000000 in
/-- The first product `x * W1`. -/
theorem VA_v4 (c : Dev nD) : VA m c (Proc.devRef .tc main_v4) = Cert.Graph.lin1 (m ((c.tc : Thread nD τ).loc main_arg0)) (m ((c.tc : Thread nD τ).loc main_arg3)) := by
  show after opsA (V0 m c) (Proc.devRef .tc main_v4) = _
  after_results_simp <;> rfl

set_option maxHeartbeats 4000000 in
/-- The sources with the self loops. -/
theorem VA_v6 (c : Dev nD) : VA m c (Proc.devRef .tc main_v6) = Cert.Graph.srcLoop (m ((c.tc : Thread nD τ).loc main_arg1)) := by
  show after opsA (V0 m c) (Proc.devRef .tc main_v6) = _
  after_results_simp <;> rfl

set_option maxHeartbeats 4000000 in
/-- The destinations with the self loops. -/
theorem VA_v7 (c : Dev nD) : VA m c (Proc.devRef .tc main_v7) = Cert.Graph.dstLoop (m ((c.tc : Thread nD τ).loc main_arg1)) := by
  show after opsA (V0 m c) (Proc.devRef .tc main_v7) = _
  after_results_simp <;> rfl

set_option maxHeartbeats 4000000 in
/-- The edge weights (first copy). -/
theorem VA_v27 (c : Dev nD) : VA m c (Proc.devRef .tc main_v27) = Cert.Graph.edgeWeight (m ((c.tc : Thread nD τ).loc main_arg1)) := by
  show after opsA (V0 m c) (Proc.devRef .tc main_v27) = _
  after_results_simp <;> rfl

/-- No operation writes an argument: the first bias as launched. -/
theorem VA_arg4 (c : Dev nD) : VA m c (Proc.devRef .tc main_arg4) = (m ((c.tc : Thread nD τ).loc main_arg4)) := by
  show after opsA (launchContents m c) (Proc.devRef .tc main_arg4) = _
  after_results_simp <;> rfl

/-! ## After the second stretch -/

set_option maxHeartbeats 4000000 in
/-- One propagation step of the first product with the first bias, clipped at zero. -/
theorem VB_v44 (c : Dev nD) : VB m c (Proc.devRef .tc main_v44) = Cert.Graph.reluNodes (Cert.Graph.propagate (Cert.Graph.lin1 (m ((c.tc : Thread nD τ).loc main_arg0)) (m ((c.tc : Thread nD τ).loc main_arg3))) (m ((c.tc : Thread nD τ).loc main_arg4)) (m ((c.tc : Thread nD τ).loc main_arg1))) := by
  show after opsB (VA m c) (Proc.devRef .tc main_v44) = _
  after_results_simp
  rw [VA_v6, VA_v4, VA_v27, VA_v7, VA_arg4]
  rfl

/-- The second stretch does not write the sources. -/
theorem VB_v1 (c : Dev nD) : VB m c (Proc.devRef .tc main_v1) = Cert.Graph.srcIds (m ((c.tc : Thread nD τ).loc main_arg1)) :=
  (show after opsB (VA m c) (Proc.devRef .tc main_v1) = VA m c (Proc.devRef .tc main_v1) by after_results_simp <;> rfl).trans (VA_v1 m c)

/-- Nor the destinations. -/
theorem VB_v3 (c : Dev nD) : VB m c (Proc.devRef .tc main_v3) = Cert.Graph.dstIds (m ((c.tc : Thread nD τ).loc main_arg1)) :=
  (show after opsB (VA m c) (Proc.devRef .tc main_v3) = VA m c (Proc.devRef .tc main_v3) by after_results_simp <;> rfl).trans (VA_v3 m c)

/-- The second weight matrix as launched. -/
theorem VB_arg5 (c : Dev nD) : VB m c (Proc.devRef .tc main_arg5) = (m ((c.tc : Thread nD τ).loc main_arg5)) := by
  show after opsB (after opsA (launchContents m c)) (Proc.devRef .tc main_arg5) = _
  after_results_simp <;> rfl

/-! ## After the third stretch -/

set_option maxHeartbeats 4000000 in
/-- The second product. -/
theorem VC_v45 (c : Dev nD) : VC m c (Proc.devRef .tc main_v45) = Cert.Graph.lin2 (Cert.Graph.reluNodes (Cert.Graph.propagate (Cert.Graph.lin1 (m ((c.tc : Thread nD τ).loc main_arg0)) (m ((c.tc : Thread nD τ).loc main_arg3))) (m ((c.tc : Thread nD τ).loc main_arg4)) (m ((c.tc : Thread nD τ).loc main_arg1)))) (m ((c.tc : Thread nD τ).loc main_arg5)) := by
  show after opsC (VB m c) (Proc.devRef .tc main_v45) = _
  after_results_simp
  rw [VB_v44, VB_arg5]
  rfl

set_option maxHeartbeats 4000000 in
/-- The sources with the self loops (second copy). -/
theorem VC_v47 (c : Dev nD) : VC m c (Proc.devRef .tc main_v47) = Cert.Graph.srcLoop (m ((c.tc : Thread nD τ).loc main_arg1)) := by
  show after opsC (VB m c) (Proc.devRef .tc main_v47) = _
  after_results_simp
  results_rw
  rw [VB_v1]
  rfl

set_option maxHeartbeats 4000000 in
/-- The destinations with the self loops (second copy). -/
theorem VC_v48 (c : Dev nD) : VC m c (Proc.devRef .tc main_v48) = Cert.Graph.dstLoop (m ((c.tc : Thread nD τ).loc main_arg1)) := by
  show after opsC (VB m c) (Proc.devRef .tc main_v48) = _
  after_results_simp
  results_rw
  rw [VB_v3]
  rfl

set_option maxHeartbeats 4000000 in
/-- The edge weights (second copy): the same function of the index array. -/
theorem VC_v68 (c : Dev nD) : VC m c (Proc.devRef .tc main_v68) = Cert.Graph.edgeWeight (m ((c.tc : Thread nD τ).loc main_arg1)) := by
  show after opsC (VB m c) (Proc.devRef .tc main_v68) = _
  after_results_simp
  results_rw
  rw [VB_v1, VB_v3]
  rfl

/-- The third stretch does not write the sources. -/
theorem VC_v1 (c : Dev nD) : VC m c (Proc.devRef .tc main_v1) = Cert.Graph.srcIds (m ((c.tc : Thread nD τ).loc main_arg1)) :=
  (show after opsC (VB m c) (Proc.devRef .tc main_v1) = VB m c (Proc.devRef .tc main_v1) by after_results_simp <;> rfl).trans (VB_v1 m c)

/-- Nor the destinations. -/
theorem VC_v3 (c : Dev nD) : VC m c (Proc.devRef .tc main_v3) = Cert.Graph.dstIds (m ((c.tc : Thread nD τ).loc main_arg1)) :=
  (show after opsC (VB m c) (Proc.devRef .tc main_v3) = VB m c (Proc.devRef .tc main_v3) by after_results_simp <;> rfl).trans (VB_v3 m c)

/-- The second bias as launched. -/
theorem VC_arg6 (c : Dev nD) : VC m c (Proc.devRef .tc main_arg6) = (m ((c.tc : Thread nD τ).loc main_arg6)) := by
  show after opsC (after opsB (after opsA (launchContents m c))) (Proc.devRef .tc main_arg6) = _
  after_results_simp <;> rfl

/-! ## After the fourth stretch -/

set_option maxHeartbeats 4000000 in
/-- The second propagation step: the node embedding. -/
theorem VD_v84 (c : Dev nD) : VD m c (Proc.devRef .tc main_v84) = Cert.Graph.nodeEmb (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show after opsD (VC m c) (Proc.devRef .tc main_v84) = _
  after_results_simp
  rw [VC_v47, VC_v45, VC_v68, VC_v48, VC_arg6]
  rfl

/-- The fourth stretch does not write the sources. -/
theorem VD_v1 (c : Dev nD) : VD m c (Proc.devRef .tc main_v1) = Cert.Graph.srcIds (m ((c.tc : Thread nD τ).loc main_arg1)) :=
  (show after opsD (VC m c) (Proc.devRef .tc main_v1) = VC m c (Proc.devRef .tc main_v1) by after_results_simp <;> rfl).trans (VC_v1 m c)

/-- Nor the destinations. -/
theorem VD_v3 (c : Dev nD) : VD m c (Proc.devRef .tc main_v3) = Cert.Graph.dstIds (m ((c.tc : Thread nD τ).loc main_arg1)) :=
  (show after opsD (VC m c) (Proc.devRef .tc main_v3) = VC m c (Proc.devRef .tc main_v3) by after_results_simp <;> rfl).trans (VC_v3 m c)

/-! ## After the fifth stretch -/

set_option maxHeartbeats 4000000 in
/-- The embedding's rows at each edge's source. -/
theorem VE_v91 (c : Dev nD) : VE m c (Proc.devRef .tc main_v91) = Cert.Graph.rowsAt (Cert.Graph.nodeEmb (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (Cert.Graph.srcIds (m ((c.tc : Thread nD τ).loc main_arg1))) := by
  show after opsE (VD m c) (Proc.devRef .tc main_v91) = _
  after_results_simp
  rw [VD_v1, VD_v84]
  rfl

set_option maxHeartbeats 4000000 in
/-- The embedding's rows at each edge's destination. -/
theorem VE_v98 (c : Dev nD) : VE m c (Proc.devRef .tc main_v98) = Cert.Graph.rowsAt (Cert.Graph.nodeEmb (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (Cert.Graph.dstIds (m ((c.tc : Thread nD τ).loc main_arg1))) := by
  show after opsE (VD m c) (Proc.devRef .tc main_v98) = _
  after_results_simp
  rw [VD_v3, VD_v84]
  rfl

/-- The edge attributes and the perceptron's four parameters as launched. -/
theorem VE_arg2 (c : Dev nD) : VE m c (Proc.devRef .tc main_arg2) = (m ((c.tc : Thread nD τ).loc main_arg2)) := by
  show after opsE (after opsD (after opsC (after opsB (after opsA (launchContents m c))))) (Proc.devRef .tc main_arg2) = _
  after_results_simp <;> rfl

theorem VE_arg7 (c : Dev nD) : VE m c (Proc.devRef .tc main_arg7) = (m ((c.tc : Thread nD τ).loc main_arg7)) := by
  show after opsE (after opsD (after opsC (after opsB (after opsA (launchContents m c))))) (Proc.devRef .tc main_arg7) = _
  after_results_simp <;> rfl

theorem VE_arg8 (c : Dev nD) : VE m c (Proc.devRef .tc main_arg8) = (m ((c.tc : Thread nD τ).loc main_arg8)) := by
  show after opsE (after opsD (after opsC (after opsB (after opsA (launchContents m c))))) (Proc.devRef .tc main_arg8) = _
  after_results_simp <;> rfl

theorem VE_arg9 (c : Dev nD) : VE m c (Proc.devRef .tc main_arg9) = (m ((c.tc : Thread nD τ).loc main_arg9)) := by
  show after opsE (after opsD (after opsC (after opsB (after opsA (launchContents m c))))) (Proc.devRef .tc main_arg9) = _
  after_results_simp <;> rfl

theorem VE_arg10 (c : Dev nD) : VE m c (Proc.devRef .tc main_arg10) = (m ((c.tc : Thread nD τ).loc main_arg10)) := by
  show after opsE (after opsD (after opsC (after opsB (after opsA (launchContents m c))))) (Proc.devRef .tc main_arg10) = _
  after_results_simp <;> rfl

/-! ## After the last stretch -/

set_option maxHeartbeats 4000000 in
/-- The edge perceptron on the rows `[emb[src] | emb[dst] | edge_attr]`: every edge's five scores. -/
theorem VG_v108 (c : Dev nD) : VG m c (Proc.devRef .tc main_v108) = Cert.Graph.edgeScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after opsG (VE m c) (Proc.devRef .tc main_v108) = _
  after_results_simp
  -- the three pieces of the joined row, each at its own buffer
  have e0 : VE m c (Proc.devRef .tc ((![main_v91, main_v98, main_arg2] : Fin 3 → Ref sig .tc) 0)) = Cert.Graph.rowsAt (Cert.Graph.nodeEmb (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (Cert.Graph.srcIds (m ((c.tc : Thread nD τ).loc main_arg1))) := VE_v91 m c
  have e1 : VE m c (Proc.devRef .tc ((![main_v91, main_v98, main_arg2] : Fin 3 → Ref sig .tc) 1)) = Cert.Graph.rowsAt (Cert.Graph.nodeEmb (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (Cert.Graph.dstIds (m ((c.tc : Thread nD τ).loc main_arg1))) := VE_v98 m c
  have e2 : VE m c (Proc.devRef .tc ((![main_v91, main_v98, main_arg2] : Fin 3 → Ref sig .tc) 2)) = (m ((c.tc : Thread nD τ).loc main_arg2)) := VE_arg2 m c
  rw [e0, e1, e2, VE_arg7, VE_arg8, VE_arg9, VE_arg10]
  rfl

/-! No operation writes an argument: each holds at the end what it held at launch. -/

set_option maxHeartbeats 4000000 in
theorem VG_arg0 (c : Dev nD) : VG m c (Proc.devRef .tc main_arg0) = (m ((c.tc : Thread nD τ).loc main_arg0)) := by
  show after opsG (after opsE (after opsD (after opsC (after opsB (after opsA (launchContents m c)))))) (Proc.devRef .tc main_arg0) = _
  after_results_simp <;> rfl

set_option maxHeartbeats 4000000 in
theorem VG_arg1 (c : Dev nD) : VG m c (Proc.devRef .tc main_arg1) = (m ((c.tc : Thread nD τ).loc main_arg1)) := by
  show after opsG (after opsE (after opsD (after opsC (after opsB (after opsA (launchContents m c)))))) (Proc.devRef .tc main_arg1) = _
  after_results_simp <;> rfl

set_option maxHeartbeats 4000000 in
theorem VG_arg2 (c : Dev nD) : VG m c (Proc.devRef .tc main_arg2) = (m ((c.tc : Thread nD τ).loc main_arg2)) := by
  show after opsG (after opsE (after opsD (after opsC (after opsB (after opsA (launchContents m c)))))) (Proc.devRef .tc main_arg2) = _
  after_results_simp <;> rfl

set_option maxHeartbeats 4000000 in
theorem VG_arg3 (c : Dev nD) : VG m c (Proc.devRef .tc main_arg3) = (m ((c.tc : Thread nD τ).loc main_arg3)) := by
  show after opsG (after opsE (after opsD (after opsC (after opsB (after opsA (launchContents m c)))))) (Proc.devRef .tc main_arg3) = _
  after_results_simp <;> rfl

set_option maxHeartbeats 4000000 in
theorem VG_arg4 (c : Dev nD) : VG m c (Proc.devRef .tc main_arg4) = (m ((c.tc : Thread nD τ).loc main_arg4)) := by
  show after opsG (after opsE (after opsD (after opsC (after opsB (after opsA (launchContents m c)))))) (Proc.devRef .tc main_arg4) = _
  after_results_simp <;> rfl

set_option maxHeartbeats 4000000 in
theorem VG_arg5 (c : Dev nD) : VG m c (Proc.devRef .tc main_arg5) = (m ((c.tc : Thread nD τ).loc main_arg5)) := by
  show after opsG (after opsE (after opsD (after opsC (after opsB (after opsA (launchContents m c)))))) (Proc.devRef .tc main_arg5) = _
  after_results_simp <;> rfl

set_option maxHeartbeats 4000000 in
theorem VG_arg6 (c : Dev nD) : VG m c (Proc.devRef .tc main_arg6) = (m ((c.tc : Thread nD τ).loc main_arg6)) := by
  show after opsG (after opsE (after opsD (after opsC (after opsB (after opsA (launchContents m c)))))) (Proc.devRef .tc main_arg6) = _
  after_results_simp <;> rfl

set_option maxHeartbeats 4000000 in
theorem VG_arg7 (c : Dev nD) : VG m c (Proc.devRef .tc main_arg7) = (m ((c.tc : Thread nD τ).loc main_arg7)) := by
  show after opsG (after opsE (after opsD (after opsC (after opsB (after opsA (launchContents m c)))))) (Proc.devRef .tc main_arg7) = _
  after_results_simp <;> rfl

set_option maxHeartbeats 4000000 in
theorem VG_arg8 (c : Dev nD) : VG m c (Proc.devRef .tc main_arg8) = (m ((c.tc : Thread nD τ).loc main_arg8)) := by
  show after opsG (after opsE (after opsD (after opsC (after opsB (after opsA (launchContents m c)))))) (Proc.devRef .tc main_arg8) = _
  after_results_simp <;> rfl

set_option maxHeartbeats 4000000 in
theorem VG_arg9 (c : Dev nD) : VG m c (Proc.devRef .tc main_arg9) = (m ((c.tc : Thread nD τ).loc main_arg9)) := by
  show after opsG (after opsE (after opsD (after opsC (after opsB (after opsA (launchContents m c)))))) (Proc.devRef .tc main_arg9) = _
  after_results_simp <;> rfl

set_option maxHeartbeats 4000000 in
theorem VG_arg10 (c : Dev nD) : VG m c (Proc.devRef .tc main_arg10) = (m ((c.tc : Thread nD τ).loc main_arg10)) := by
  show after opsG (after opsE (after opsD (after opsC (after opsB (after opsA (launchContents m c)))))) (Proc.devRef .tc main_arg10) = _
  after_results_simp <;> rfl

end Stages

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = Cert.Graph.edgeScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v108).trans ((congrFun (after_ops m c) _).trans (VG_v108 m c)),
      (h c main_arg0).trans ((congrFun (after_ops m c) _).trans (VG_arg0 m c)),
      (h c main_arg1).trans ((congrFun (after_ops m c) _).trans (VG_arg1 m c)),
      (h c main_arg2).trans ((congrFun (after_ops m c) _).trans (VG_arg2 m c)),
      (h c main_arg3).trans ((congrFun (after_ops m c) _).trans (VG_arg3 m c)),
      (h c main_arg4).trans ((congrFun (after_ops m c) _).trans (VG_arg4 m c)),
      (h c main_arg5).trans ((congrFun (after_ops m c) _).trans (VG_arg5 m c)),
      (h c main_arg6).trans ((congrFun (after_ops m c) _).trans (VG_arg6 m c)),
      (h c main_arg7).trans ((congrFun (after_ops m c) _).trans (VG_arg7 m c)),
      (h c main_arg8).trans ((congrFun (after_ops m c) _).trans (VG_arg8 m c)),
      (h c main_arg9).trans ((congrFun (after_ops m c) _).trans (VG_arg9 m c)),
      (h c main_arg10).trans ((congrFun (after_ops m c) _).trans (VG_arg10 m c))⟩)
    (run_seq scopedRefs_eq scopedSems_eq defs main (fun _ => ops) main_eq (fun _ => ops_sub) m ρ)

end Cert.ReferenceIdeal.Staged

end
-- ==== Proof.lean ====
/-
  The certificate of the edge classifier: two graph-convolution layers and an edge perceptron.

  Kernel and reference compute the same network.  With `deg` the in-degree after a self loop is added to every node, an
  edge weighs `deg(src)^(-1/2) * deg(dst)^(-1/2)`; a layer multiplies the node table by its weight matrix, sums
  `weight * row[src]` over the edges into each node and adds a bias (the first layer then clips at zero); an edge's
  five scores are a two-layer perceptron of the row `[emb[src] | emb[dst] | edge_attr]`.  The gathers, scatter-adds,
  the reciprocal square root and the index wrap are the SAME host operations in both programs, so they are carried as
  whole functions and never opened.  The programs differ in three places only: the two layer products and the
  perceptron are matrix regions over row blocks in the kernel and host contractions in the reference — at the ideal
  instance both are the plain sum over the inner index, and blocks of rows tile the array —; the kernel narrows the
  operands of its regions to sixteen bits, the identity on extended reals; and the kernel's perceptron takes the row in
  three pieces against the three row blocks of the first matrix, where the reference concatenates the row and contracts
  once: a sum over 144 = 64 + 64 + 16 inner indices is the sum of the three partial sums.  Only commutativity and
  associativity of the extended reals' addition are used; the precondition is never opened.

  The frames of the two kernel programs are the generated ones.  The reference's run is read stretch by stretch
  (Proof/RefStaged.lean); the kernel's run names its result buffer at the last boundary's contents (Proof/KernelRun.lean)
  and Proof/ChainValue.lean reads that as the network's edge scores.  The idealization rewrote nothing, so `preserves`
  is `True`.
-/
import proofs.«169596_j25220047962748_1_alg».proof.Defs
import proofs.«169596_j25220047962748_1_alg».proof.Proof.Gen.Kernel
import proofs.«169596_j25220047962748_1_alg».proof.Proof.Gen.Kernel.Frame
import proofs.«169596_j25220047962748_1_alg».proof.Proof.Gen.KernelIdeal
import proofs.«169596_j25220047962748_1_alg».proof.Proof.Gen.KernelIdeal.Frame
import proofs.«169596_j25220047962748_1_alg».proof.Proof.Gen.ReferenceIdeal
import proofs.«169596_j25220047962748_1_alg».proof.Proof.Gen.Pre_finite_inputs
import proofs.«169596_j25220047962748_1_alg».proof.Proof.KernelRun
import proofs.«169596_j25220047962748_1_alg».proof.Proof.ChainValue
import proofs.«169596_j25220047962748_1_alg».proof.Proof.RefStaged
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- From memories that agree on the arguments both programs end with the network's edge scores of those arguments. -/
theorem algebraic : Cert.algebraic_KernelIdeal_ReferenceIdeal := by
  intro m ρ m' ρ' _ hagree
  refine ⟨fun c => Cert.Graph.edgeScores (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.kernel_value m ρ c), (h c).2⟩)
      (Cert.KernelIdeal.Named.run_named m ρ)
  · refine (θ_run Cert.ReferenceIdeal.defs _ _).mono (fun _ h c => ⟨(h c).1.trans ?_, (h c).2⟩)
      (Cert.ReferenceIdeal.Staged.run (F := Ideal) m' ρ')
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
